-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x64 .f32) (main_arg1 : IVec S2x1600000 32) (main_arg2 : FVec F S64x64 .f32) (main_arg3 : FVec F S64 .f32) (main_arg4 : FVec F S64x16 .f32) (main_arg5 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg1 main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x64 : Shape := ⟨2, ![2000, 64]⟩
abbrev S1 : Shape := ⟨1, ![1]⟩
abbrev S1x1 : Shape := ⟨2, ![1, 1]⟩
abbrev S1700000x64 : Shape := ⟨2, ![1700000, 64]⟩
abbrev S10000x64 : Shape := ⟨2, ![10000, 64]⟩
abbrev S10000x1 : Shape := ⟨2, ![10000, 1]⟩
abbrev S1x64 : Shape := ⟨2, ![1, 64]⟩
abbrev S100000x16 : Shape := ⟨2, ![100000, 16]⟩
abbrev S2000x16 : Shape := ⟨2, ![2000, 16]⟩
abbrev S1700000x16 : Shape := ⟨2, ![1700000, 16]⟩
abbrev S10000x16 : Shape := ⟨2, ![10000, 16]⟩
abbrev S1x16 : Shape := ⟨2, ![1, 16]⟩

abbrev nBuf : Space → Nat
  | .hbm => 110
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1, .i32⟩
  | .hbm, ⟨56, _⟩ => ⟨S_, .i32⟩
  | .hbm, ⟨57, _⟩ => ⟨S1700000x1, .i32⟩
  | .hbm, ⟨58, _⟩ => ⟨S1700000x1, .i1⟩
  | .hbm, ⟨59, _⟩ => ⟨S1x1, .i32⟩
  | .hbm, ⟨60, _⟩ => ⟨S1700000x1, .i32⟩
  | .hbm, ⟨61, _⟩ => ⟨S1700000x1, .i1⟩
  | .hbm, ⟨62, _⟩ => ⟨S1700000x1, .i1⟩
  | .hbm, ⟨63, _⟩ => ⟨S_, .i1⟩
  | .hbm, ⟨64, _⟩ => ⟨S1700000, .i1⟩
  | .hbm, ⟨65, _⟩ => ⟨S1700000x64, .f32⟩
  | .hbm, ⟨66, _⟩ => ⟨S1700000x64, .i1⟩
  | .hbm, ⟨67, _⟩ => ⟨S_, .f32⟩
  | .hbm, ⟨68, _⟩ => ⟨S1700000x64, .f32⟩
  | .hbm, ⟨69, _⟩ => ⟨S1700000x64, .f32⟩
  | .hbm, ⟨70, _⟩ => ⟨S1700000x1, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x16, .f32⟩
  | .hbm, ⟨79, _⟩ => ⟨S_, .i32⟩
  | .hbm, ⟨80, _⟩ => ⟨S1700000, .i32⟩
  | .hbm, ⟨81, _⟩ => ⟨S1700000, .i1⟩
  | .hbm, ⟨82, _⟩ => ⟨S_, .i32⟩
  | .hbm, ⟨83, _⟩ => ⟨S1700000, .i32⟩
  | .hbm, ⟨84, _⟩ => ⟨S1700000, .i32⟩
  | .hbm, ⟨85, _⟩ => ⟨S1700000, .i32⟩
  | .hbm, ⟨86, _⟩ => ⟨S1700000x1, .i32⟩
  | .hbm, ⟨87, _⟩ => ⟨S1, .i32⟩
  | .hbm, ⟨88, _⟩ => ⟨S_, .i32⟩
  | .hbm, ⟨89, _⟩ => ⟨S1700000x1, .i32⟩
  | .hbm, ⟨90, _⟩ => ⟨S1700000x1, .i1⟩
  | .hbm, ⟨91, _⟩ => ⟨S1x1, .i32⟩
  | .hbm, ⟨92, _⟩ => ⟨S1700000x1, .i32⟩
  | .hbm, ⟨93, _⟩ => ⟨S1700000x1, .i1⟩
  | .hbm, ⟨94, _⟩ => ⟨S1700000x1, .i1⟩
  | .hbm, ⟨95, _⟩ => ⟨S_, .i1⟩
  | .hbm, ⟨96, _⟩ => ⟨S1700000, .i1⟩
  | .hbm, ⟨97, _⟩ => ⟨S1700000x16, .f32⟩
  | .hbm, ⟨98, _⟩ => ⟨S1700000x16, .i1⟩
  | .hbm, ⟨99, _⟩ => ⟨S_, .f32⟩
  | .hbm, ⟨100, _⟩ => ⟨S1700000x16, .f32⟩
  | .hbm, ⟨101, _⟩ => ⟨S1700000x16, .f32⟩
  | .hbm, ⟨102, _⟩ => ⟨S1700000x1, .f32⟩
  | .hbm, ⟨103, _⟩ => ⟨S1700000x16, .f32⟩
  | .hbm, ⟨104, _⟩ => ⟨S_, .f32⟩
  | .hbm, ⟨105, _⟩ => ⟨S100000x16, .f32⟩
  | .hbm, ⟨106, _⟩ => ⟨S1700000x1, .i32⟩
  | .hbm, ⟨107, _⟩ => ⟨S100000x16, .f32⟩
  | .hbm, ⟨108, _⟩ => ⟨S1x16, .f32⟩
  | .hbm, ⟨109, _⟩ => ⟨S100000x16, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S10000x64, .f32⟩
  | .local _ .vmem, ⟨6, _⟩ => ⟨S10000x64, .f32⟩
  | .local _ .vmem, ⟨7, _⟩ => ⟨S10000x1, .f32⟩
  | .local _ .vmem, ⟨8, _⟩ => ⟨S10000x1, .f32⟩
  | .local _ .vmem, ⟨9, _⟩ => ⟨S10000x64, .f32⟩
  | .local _ .vmem, ⟨10, _⟩ => ⟨S10000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S64x16, .f32⟩
  | .local _ .vmem, ⟨19, _⟩ => ⟨S2000x16, .f32⟩
  | .local _ .vmem, ⟨20, _⟩ => ⟨S2000x16, .f32⟩
  | .local _ .vmem, ⟨21, _⟩ => ⟨S10000x16, .f32⟩
  | .local _ .vmem, ⟨22, _⟩ => ⟨S10000x16, .f32⟩
  | .local _ .vmem, ⟨23, _⟩ => ⟨S10000x1, .f32⟩
  | .local _ .vmem, ⟨24, _⟩ => ⟨S10000x1, .f32⟩
  | .local _ .vmem, ⟨25, _⟩ => ⟨S10000x16, .f32⟩
  | .local _ .vmem, ⟨26, _⟩ => ⟨S10000x16, .f32⟩
  | .local _ .vmem, ⟨27, _⟩ => ⟨S2000x16, .f32⟩
  | .local _ .vmem, ⟨28, _⟩ => ⟨S2000x16, .f32⟩
  | .local _ .vmem, ⟨29, _⟩ => ⟨S1x16, .f32⟩
  | .local _ .vmem, ⟨30, _⟩ => ⟨S2000x16, .f32⟩
  | .local _ .vmem, ⟨31, _⟩ => ⟨S2000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_6 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_cst_7 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![170], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1700000x1 : S_.BroadcastsInDim S1700000x1 (![] : Fin 0 → Fin S1700000x1.rank)
  bcast_S1_S1x1_1 : S1.BroadcastsInDim S1x1 (![1] : Fin 1 → Fin S1x1.rank)
  bcast_S1x1_S1700000x1_0_1 : S1x1.BroadcastsInDim S1700000x1 (![0, 1] : Fin 2 → Fin S1700000x1.rank)
  reducesTo_S1700000x1_S1700000_d1 : S1700000x1.ReducesTo [1] S1700000
  h_S_ : 0 < S_.numel
  bcast_S1700000_S1700000x64_0 : S1700000.BroadcastsInDim S1700000x64 (![0] : Fin 1 → Fin S1700000x64.rank)
  bcast_S_S1700000x64 : S_.BroadcastsInDim S1700000x64 (![] : Fin 0 → Fin S1700000x64.rank)
  shapeCasts_S1700000_S1700000x1 : S1700000.ShapeCasts S1700000x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S2000x16_S2000x16_0_0 : ∀ a, (![0, 0] : Fin 2 → Nat) a + S2000x16.size a ≤ S2000x16.size a
  h_S2000x16 : 0 < S2000x16.numel
  bcast_S1700000_S1700000x16_0 : S1700000.BroadcastsInDim S1700000x16 (![0] : Fin 1 → Fin S1700000x16.rank)
  bcast_S_S1700000x16 : S_.BroadcastsInDim S1700000x16 (![] : Fin 0 → Fin S1700000x16.rank)
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  broadcasts_S10000x1_S10000x16 : S10000x1.Broadcasts S10000x16
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x64_S64x64_S2000x64_1_0_0_1_n_n_wf : DotDims.WF S2000x64 S64x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x16_S2000x16_1_0_0_1_n_n_wf : DotDims.WF S2000x64 S64x16 S2000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1700000x64.size a
  hwx1_0 : ∀ i : grid1.Coords, EltTy.bits .f32 = 32 ∨ (Rect.block (s := S1700000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1700000x64.size a
  hwx1_2 : ∀ i : grid1.Coords, EltTy.bits .f32 = 32 ∨ (Rect.block (s := S1700000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x16.size a ≤ S64x16.size a
  hwx3_1 : ∀ i : grid3.Coords, EltTy.bits .f32 = 32 ∨ (Rect.block (s := S64x16) S64x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x16.size a ≤ S100000x16.size a
  hwx3_2 : ∀ i : grid3.Coords, EltTy.bits .f32 = 32 ∨ (Rect.block (s := S100000x16) S2000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S1700000x16.size a
  hwx4_0 : ∀ i : grid4.Coords, EltTy.bits .f32 = 32 ∨ (Rect.block (s := S1700000x16) S10000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1700000x1.size a
  hwx4_1 : ∀ i : grid4.Coords, EltTy.bits .f32 = 32 ∨ (Rect.block (s := S1700000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x16.size a ≤ S1700000x16.size a
  hwx4_2 : ∀ i : grid4.Coords, EltTy.bits .f32 = 32 ∨ (Rect.block (s := S1700000x16) S10000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x16.size a ≤ S100000x16.size a
  hwx5_0 : ∀ i : grid5.Coords, EltTy.bits .f32 = 32 ∨ (Rect.block (s := S100000x16) S2000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x16.size a ≤ S100000x16.size a
  hwx5_2 : ∀ i : grid5.Coords, EltTy.bits .f32 = 32 ∨ (Rect.block (s := S100000x16) S2000x16.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v36) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S2000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v40) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S10000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S2000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S2000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x16, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x16, .f32⟩
  | .hbm, ⟨79, _⟩ => ⟨S1700000x1, .f32⟩
  | .hbm, ⟨80, _⟩ => ⟨S1700000x16, .f32⟩
  | .hbm, ⟨81, _⟩ => ⟨S1700000x16, .f32⟩
  | .hbm, ⟨82, _⟩ => ⟨S_, .f32⟩
  | .hbm, ⟨83, _⟩ => ⟨S100000x16, .f32⟩
  | .hbm, ⟨84, _⟩ => ⟨S1700000x1, .i32⟩
  | .hbm, ⟨85, _⟩ => ⟨S100000x16, .f32⟩
  | .hbm, ⟨86, _⟩ => ⟨S1x16, .f32⟩
  | .hbm, ⟨87, _⟩ => ⟨S100000x16, .f32⟩
  | .hbm, ⟨88, _⟩ => ⟨S100000x16, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.Idx.lean ====
/- The index side of the bridge, as definitions: where the 1,700,000 messages come from, and how both programs
   read a table row for each of them. Every message e has a source node src(e): for e < 1,600,000 the edge list's
   row 0 at e, and for the rest the self loop's node e - 1,600,000. Both programs first move a negative index up by
   100,000 (numpy's wrap). The reference then gathers the table's row at that index (a gather clamps its start index
   into the table); the kernel's take keeps the gathered row only where the wrapped index lies in [0, 99999] and
   writes a fill pattern elsewhere. Where every source names a node the two agree: that is proved in the modules
   that import this one. -/
import proofs.«404506_j5342939316741_2_alg».proof.Proof.Gen.KernelIdeal

noncomputable section
namespace Cert.Bridge
open Idealize.ShloMosaic
open Cert.KernelIdeal Cert.KernelIdeal.Facts₀ Cert.KernelIdeal.Facts

variable {F : FTy → Type} [FloatOps F]

/-- The sources of the 1,700,000 messages: row 0 of the edge list, then one self loop per node. -/
def srcOf (a1 : IVec S2x1600000 32) : IVec S1700000 32 :=
  concatenate S1700000 0 [⟨S1600000, shapeCast S1600000 (extractStridedSlice S1x1600000 ![0, 0] a1 slices_S2x1600000_S1x1600000_0_0) shapeCasts_S1x1600000_S1600000⟩, ⟨S100000, iotaInDim S100000 32 0⟩] concatenates_S1600000_S100000_S1700000_d0

/-- A word that, read as a signed number, names one of the 100,000 nodes. -/
def IsNode (w : BitVec 32) : Prop := 0 ≤ w.toInt ∧ w.toInt < 100000

/-- The column of start indices both programs gather with: a negative index moved up by 100,000 (numpy's wrap), as a column. -/
def wrapCol (s : IVec S1700000 32) : IVec S1700000x1 32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Which rows of the gather are kept: the wrapped index lies in [0, 99999]. -/
def inRange (s : IVec S1700000 32) : IVec S1700000 1 :=
  Host.reduce IntOp.andi
    (andi (cmpi .sge (wrapCol s) (broadcastInDim S1700000x1 ![] bcast_S_S1700000x1 (constantI S_ 32 0#32)))
      (cmpi .sle (wrapCol s) (broadcastInDim S1700000x1 ![0, 1] bcast_S1x1_S1700000x1_0_1 (broadcastInDim S1x1 ![1] bcast_S1_S1x1_1 (constantI S1 32 99999#32)))))
    (constantI S_ 1 1#1) reducesTo_S1700000x1_S1700000_d1 h_S_

/-- jnp.take in fill mode over 64 columns: the gathered row where the index is in range, the fill pattern elsewhere. -/
def takeFill64 (x : FVec F S100000x64 .f32) (s : IVec S1700000 32) : FVec F S1700000x64 .f32 :=
  select (broadcastInDim S1700000x64 ![0] bcast_S1700000_S1700000x64_0 (inRange s))
    (Host.gather gather_S100000x64_S1700000x1_S1700000x64_1_0_n_n_0_1_164 x (wrapCol s))
    (broadcastInDim S1700000x64 ![] bcast_S_S1700000x64 (constant S_ .f32 0x7FC00000#32))

/-- The same over 16 columns. -/
def takeFill16 (x : FVec F S100000x16 .f32) (s : IVec S1700000 32) : FVec F S1700000x16 .f32 :=
  select (broadcastInDim S1700000x16 ![0] bcast_S1700000_S1700000x16_0 (inRange s))
    (Host.gather gather_S100000x16_S1700000x1_S1700000x16_1_0_n_n_0_1_116 x (wrapCol s))
    (broadcastInDim S1700000x16 ![] bcast_S_S1700000x16 (constant S_ .f32 0x7FC00000#32))

end Cert.Bridge
end
-- ==== Proof.SrcRange.lean ====
/- Every message's source names a node. The precondition's last conjunct says that each word of the edge list's row 0
   lies in [0, 100000), read signed. The sources of the 1,700,000 messages are that row followed by one self loop per
   node, the self loop of node p having source p; so every source is a word w with 0 ≤ w < 100000. -/
import proofs.«404506_j5342939316741_2_alg».proof.Proof.Idx
import proofs.«404506_j5342939316741_2_alg».proof.Defs
import proofs.«404506_j5342939316741_2_alg».proof.Proof.Gen.Pre_finite_inputs
import Idealize.ShloMosaic.Lib.ValueIdx
import Idealize.ShloMosaic.Lib.Pipeline.Value
import Idealize.ShloMosaic.Lib.StableHlo.Predicate
import Idealize.ShloMosaic.Lib.ReduceAll
noncomputable section
namespace Cert.Bridge
open Idealize.ShloMosaic
open Cert.KernelIdeal Cert.KernelIdeal.Facts₀ Cert.KernelIdeal.Facts

variable {F : FTy → Type} [FloatOps F]

/-- A word that compares at least 0 and below 100,000, signed, names a node. -/
theorem isNode_of_cmpi (w : BitVec 32) (h0 : IntOp.cmpi .sge w 0#32 = 1#1) (h1 : IntOp.cmpi .slt w 100000#32 = 1#1) :
    IsNode w := by
  unfold IntOp.cmpi at h0 h1
  rw [StableHlo.Predicate.ofBool_eq_one_iff] at h0 h1
  simp only [BitVec.slt, BitVec.sle, decide_eq_true_eq] at h0 h1
  have e0 : (0#32 : BitVec 32).toInt = 0 := by decide
  have e1 : (100000#32 : BitVec 32).toInt = 100000 := by decide
  rw [e0] at h0; rw [e1] at h1
  exact ⟨h0, h1⟩

/-- The word at position p of the counting vector is p, and p below 100,000 names a node. -/
theorem isNode_ofNat (p : Nat) (hp : p < 100000) : IsNode (BitVec.ofNat 32 p) := by
  have ht := StableHlo.Predicate.toInt_ofNat_small p (by omega)
  unfold IsNode
  rw [ht]
  omega

theorem srcOf_isNode_of_pre (a0 : FVec F S100000x64 .f32) (a1 : IVec S2x1600000 32) (a2 : FVec F S64x64 .f32) (a3 : FVec F S64 .f32)
    (a4 : FVec F S64x16 .f32) (a5 : FVec F S16 .f32)
    (h : Cert.Pre_finite_inputs.fn (F := F) a0 a1 a2 a3 a4 a5 = fun _ => 1#1) (e : S1700000.Idx) : IsNode (srcOf a1 e) := by
  -- the precondition at its one index is a conjunction of six "all" tests; the last is the range test on the edge list's row 0
  have h0 := congrFun h ValueIdx.ix0
  dsimp only [Cert.Pre_finite_inputs.fn, Cert.Pre_finite_inputs.fn_part1] at h0
  have h1 := (IntOp.andi_eq_one.1 h0).2
  haveI : Subsingleton Cert.Pre_finite_inputs.S_.Idx := ⟨fun a b => funext fun d => d.elim0⟩
  have hbd : (e 0).val < 1700000 := (e 0).isLt
  by_cases hlt : (e 0).val < 1600000
  · -- a message of the edge list: its source is row 0 at the same position, which the range test covers
    have hall := Host.reduce_andi_all _ _ _ _ _ h1 (ValueIdx.ix1 (⟨(e 0).val, hlt⟩ : Fin 1600000))
    obtain ⟨hge, hl⟩ := IntOp.andi_eq_one.1 hall
    have hread : srcOf a1 e
        = shapeCast S1600000 (extractStridedSlice S1x1600000 ![0, 0] a1 slices_S2x1600000_S1x1600000_0_0) shapeCasts_S1x1600000_S1600000
            (ValueIdx.ix1 (⟨(e 0).val, hlt⟩ : Fin 1600000)) := by
      unfold srcOf
      exact concatenate_pair_apply_left (t := S1700000) (s₁ := S1600000) (s₂ := S100000) 0 _ _ _ e rfl _ (fun b => by
        have hb : b = 0 := Subsingleton.elim _ _
        subst hb; rfl)
    rw [hread]
    exact isNode_of_cmpi _ hge hl
  · -- a self loop: its source is the node's own number
    have hpos : (e 0).val - 1600000 < 100000 := by omega
    have hread : srcOf a1 e = iotaInDim S100000 32 0 (ValueIdx.ix1 (⟨(e 0).val - 1600000, hpos⟩ : Fin 100000)) := by
      unfold srcOf
      exact concatenate_pair_apply_right (t := S1700000) (s₁ := S1600000) (s₂ := S100000) 0 _ _ _ e rfl rfl _ (fun b hb => absurd (Subsingleton.elim _ _) hb)
        (by show (e 0).val - 1600000 + 1600000 = (e 0).val; omega)
    rw [hread]
    exact isNode_ofNat _ hpos

end Cert.Bridge
end
-- ==== Proof.TakeFill.lean ====
/- A take in fill mode that never fills. The kernel's take keeps a gathered row only where the wrapped start index
   lies in [0, 99999], and writes a fill pattern elsewhere. Where every source word names a node (as a signed number
   it lies in [0, 99999]) the wrap leaves the word alone, both comparisons hold, the and-reduce over the column axis
   of extent one is 1 at every row, and so the select keeps the gathered row everywhere: the take IS the gather. -/
import proofs.«404506_j5342939316741_2_alg».proof.Proof.Idx
import Idealize.ShloMosaic.Lib.ValueIdx
import Idealize.ShloMosaic.Lib.Pipeline.Value
import Idealize.ShloMosaic.Lib.StableHlo.Predicate
import Idealize.ShloMosaic.Lib.ReduceAll
noncomputable section
namespace Cert.Bridge
open Idealize.ShloMosaic
open Cert.KernelIdeal Cert.KernelIdeal.Facts₀ Cert.KernelIdeal.Facts

variable {F : FTy → Type} [FloatOps F]

/-! ## One word -/

/-- A word that names a node is not negative as a signed number, so the wrap's test fails on it. -/
theorem wrapTest_of_isNode (w : BitVec 32) (hw : IsNode w) : IntOp.cmpi .slt w 0#32 ≠ 1#1 := by
  intro h
  have h' := IntOp.cmpi_slt.1 h
  have h0 : (0#32 : BitVec 32).toInt = 0 := by decide
  rw [h0] at h'
  exact absurd hw.1 (not_le.2 h')

/-- The wrap leaves a word that names a node alone. -/
theorem wrapWord_of_isNode (w : BitVec 32) (hw : IsNode w) :
    Scalar.select (IntOp.cmpi .slt w 0#32) (IntOp.addi w 100000#32) w = w := by
  unfold Scalar.select
  exact if_neg (wrapTest_of_isNode w hw)

/-- The two range tests both hold on the wrapped word of a word that names a node. -/
theorem rangeBit_of_isNode (w : BitVec 32) (hw : IsNode w) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  rw [wrapWord_of_isNode w hw]
  have h0 : (0#32 : BitVec 32).toInt = 0 := by decide
  have h1 : (99999#32 : BitVec 32).toInt = 99999 := by decide
  refine IntOp.andi_eq_one.2 ⟨IntOp.cmpi_sge.2 ?_, IntOp.cmpi_sle.2 ?_⟩
  · rw [h0]; exact hw.1
  · rw [h1]; exact Int.lt_add_one_iff.1 hw.2

/-! ## A reduce by and of bits that are all 1 -/

/-- A left fold by and, from 1, over words that are all 1, is 1. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_of_all_one f hf l

/-- A reduce by and, from an initial 1, of bits that are all 1, is 1 at every result index. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_of_all_one x hx _

/-! ## The mask -/

/-- Where every source names a node every row of the take is kept. -/
theorem inRange_eq_one (s : IVec S1700000 32) (hs : ∀ e : S1700000.Idx, IsNode (s e)) (e : S1700000.Idx) :
    inRange s e = 1#1 := by
  unfold inRange
  refine reduce_andi_of_all_one _ _ _ _ (fun i => ?_) rfl e
  exact rangeBit_of_isNode _ (hs _)

/-! ## The two takes -/

theorem takeFill64_eq (x : FVec F S100000x64 .f32) (s : IVec S1700000 32) (hs : ∀ e : S1700000.Idx, IsNode (s e)) :
    takeFill64 x s = Host.gather gather_S100000x64_S1700000x1_S1700000x64_1_0_n_n_0_1_164 x (wrapCol s) := by
  funext j
  unfold takeFill64
  rw [ValueIdx.select_apply]
  unfold Scalar.select
  exact if_pos (inRange_eq_one s hs _)

theorem takeFill16_eq (x : FVec F S100000x16 .f32) (s : IVec S1700000 32) (hs : ∀ e : S1700000.Idx, IsNode (s e)) :
    takeFill16 x s = Host.gather gather_S100000x16_S1700000x1_S1700000x16_1_0_n_n_0_1_116 x (wrapCol s) := by
  funext j
  unfold takeFill16
  rw [ValueIdx.select_apply]
  unfold Scalar.select
  exact if_pos (inRange_eq_one s hs _)

end Cert.Bridge
end
-- ==== Proof.Relayout.lean ====
/- Two ways of writing the same array. A vector reshaped to a one-column matrix, or to a one-row matrix, holds at every
   position the vector's entry at the one coordinate that varies; so does the vector broadcast along the new unit axis.
   Both sides are read at an index (p, q) or (u, i) and agree there. -/
import proofs.«404506_j5342939316741_2_alg».proof.Proof.Idx
import proofs.«404506_j5342939316741_2_alg».proof.Proof.Gen.ReferenceIdeal
import Idealize.ShloMosaic.Lib.ValueIdx
import Idealize.ShloMosaic.Lib.Pipeline.Value
import Idealize.ShloMosaic.Lib.ValueLayout
import Idealize.ShloMosaic.Lib.StableHlo.Predicate
noncomputable section
namespace Cert.Bridge
open Idealize.ShloMosaic
open Cert.KernelIdeal Cert.KernelIdeal.Facts₀ Cert.KernelIdeal.Facts

variable {F : FTy → Type} [FloatOps F]

/-- A vector of length a reshaped to an [a, 1] column reads, at (p, q), the vector at p. -/
theorem shapeCast_a_a1_apply {α : Type} {a : ℕ} (x : (⟨1, ![a]⟩ : Shape).Idx → α) (h : (⟨1, ![a]⟩ : Shape).ShapeCasts ⟨2, ![a, 1]⟩)
    (p : Fin a) (q : Fin 1) : shapeCast ⟨2, ![a, 1]⟩ x h (ValueIdx.ix2 p q) = x (ValueIdx.ix1 p) :=
  shapeCast_apply x h _ _ (by
    have hq : q.val = 0 := by omega
    rw [Shape.rowMajor_val_two, Shape.rowMajor_val_one]
    show p.val = p.val * 1 + q.val
    rw [hq, Nat.mul_one, Nat.add_zero])

/-- A vector of length a broadcast along a new second axis of extent 1 reads, at (p, q), the vector at p. -/
theorem bcast_a_a1_apply {α : Type} {a : ℕ} (x : (⟨1, ![a]⟩ : Shape).Idx → α)
    (h : (⟨1, ![a]⟩ : Shape).BroadcastsInDim ⟨2, ![a, 1]⟩ ![0]) (p : Fin a) (q : Fin 1) :
    broadcastInDim ⟨2, ![a, 1]⟩ ![0] h x (ValueIdx.ix2 p q) = x (ValueIdx.ix1 p) :=
  broadcastInDim_apply _ h x _ _ (fun b => by
    have hb : b = 0 := Subsingleton.elim _ _
    subst hb
    show p.val = if a = 1 then 0 else p.val
    split
    · omega
    · rfl)

/-- A vector of length a broadcast along a new first axis of extent 1 reads, at (u, i), the vector at i. -/
theorem bcast_a_1a_apply {α : Type} {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ValueIdx.ix2 u i) = x (ValueIdx.ix1 i) :=
  broadcastInDim_apply _ h x _ _ (fun b => by
    have hb : b = 0 := Subsingleton.elim _ _
    subst hb
    show i.val = if a = 1 then 0 else i.val
    split
    · omega
    · rfl)

/-- A vector reshaped to a column is the vector broadcast along a new second axis. -/
theorem col_of_vec (n : FVec F S1700000 .f32) :
    shapeCast S1700000x1 n shapeCasts_S1700000_S1700000x1
      = broadcastInDim Cert.ReferenceIdeal.S1700000x1 ![0] Cert.ReferenceIdeal.Facts₀.bcast_S1700000_S1700000x1_0 n := by
  funext i
  obtain ⟨p, q, rfl⟩ : ∃ (p : Fin 1700000) (q : Fin 1), i = ValueIdx.ix2 p q := ⟨i 0, i 1, ValueIdx.eq_ix2 i⟩
  exact (shapeCast_a_a1_apply n _ p q).trans (bcast_a_a1_apply n _ p q).symm

/-- A vector reshaped to a row is the vector broadcast along a new first axis. -/
theorem row_of_vec64 (b : FVec F S64 .f32) :
    shapeCast S1x64 b shapeCasts_S64_S1x64 = broadcastInDim Cert.ReferenceIdeal.S1x64 ![1] Cert.ReferenceIdeal.Facts₀.bcast_S64_S1x64_1 b := by
  funext i
  obtain ⟨u, j, rfl⟩ : ∃ (u : Fin 1) (j : Fin 64), i = ValueIdx.ix2 u j := ⟨i 0, i 1, ValueIdx.eq_ix2 i⟩
  exact (ValueIdx.shapeCast_a_1a_apply b _ u j).trans (bcast_a_1a_apply b _ u j).symm

theorem row_of_vec16 (b : FVec F S16 .f32) :
    shapeCast S1x16 b shapeCasts_S16_S1x16 = broadcastInDim Cert.ReferenceIdeal.S1x16 ![1] Cert.ReferenceIdeal.Facts₀.bcast_S16_S1x16_1 b := by
  funext i
  obtain ⟨u, j, rfl⟩ : ∃ (u : Fin 1) (j : Fin 16), i = ValueIdx.ix2 u j := ⟨i 0, i 1, ValueIdx.eq_ix2 i⟩
  exact (ValueIdx.shapeCast_a_1a_apply b _ u j).trans (bcast_a_1a_apply b _ u j).symm

end Cert.Bridge
end
-- ==== Proof.Lin0.lean ====
/- Layer 1's linear map, read off the pipeline: the kernel multiplies the node table by the weight matrix one block of
   2000 rows at a time (50 blocks); the reference multiplies the whole 100000 × 64 table at once. At the extended
   reals the change of float format is the identity and a block product into a zero accumulator is the plain sum
   over the 64 contracted positions, so entry (r, c) of block t is ∑ k, x(2000·t + r, k) · w(k, c), which is entry
   (2000·t + r, c) of the whole product; the 50 blocks tile the result. -/
import proofs.«404506_j5342939316741_2_alg».proof.Proof.Gen.KernelIdeal.Frame
import proofs.«404506_j5342939316741_2_alg».proof.Proof.Gen.ReferenceIdeal
import Idealize.ShloMosaic.PureOps.Ideal.Laws
import Idealize.ShloMosaic.Lib.ValueIdx
import Idealize.ShloMosaic.Lib.Pipeline.Value

noncomputable section
namespace Cert.Bridge
open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))
variable (VI : (c : Dev nD) → (b : Ref sig .tc) → Buf (Elt Ideal) ((c : Thread nD τ).loc b))

namespace Lin0

/-- The body loads and stores whole blocks: every offset is zero. -/
theorem zeroOffsets : (![0, 0] : Fin 2 → Nat) = fun _ => 0 := funext fun a => by fin_cases a <;> rfl

/-! ## The block product at an entry -/

/-- The left operand's row is the output's row. -/
theorem blockLeft_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column is the contracted position. -/
theorem blockLeft_col (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row is the contracted position. -/
theorem blockRight_row (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column is the output's column. -/
theorem blockRight_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Entry (row of i, k) of a block of table rows. -/
abbrev blockLeftAt (i : S2000x64.Idx) (k : Fin 64) : S2000x64.Idx := fun a => match a with
  | ⟨0, _⟩ => ⟨(i 0).val, (i 0).isLt⟩
  | ⟨1, _⟩ => ⟨k.val, k.isLt⟩
/-- Entry (k, column of i) of the weight matrix. -/
abbrev weightAt (i : S2000x64.Idx) (k : Fin 64) : S64x64.Idx := fun a => match a with
  | ⟨0, _⟩ => ⟨k.val, k.isLt⟩
  | ⟨1, _⟩ => ⟨(i 1).val, (i 1).isLt⟩

/-- The body's stored value at an entry: the sum over the 64 contracted positions of row entry times weight entry. -/
theorem blockProduct_apply (x : Vec Ideal S2000x64 .f32) (w : Vec Ideal S64x64 .f32) (i : S2000x64.Idx) :
    k0_pay1 (F := Ideal) x w i = ∑ k : Fin 64, x (blockLeftAt i k) * w (weightAt i k) := by
  refine (Ideal.matmul_constant_zero_apply dot_S2000x64_S64x64_S2000x64_1_0_0_1_n_n none
    (truncf .bf16 x bitsLt_bf16_f32) (truncf .bf16 w bitsLt_bf16_f32) i).trans ?_
  show (∑ q : dot_S2000x64_S64x64_S2000x64_1_0_0_1_n_n.contr.Idx,
      x (dot_S2000x64_S64x64_S2000x64_1_0_0_1_n_n.lhsIdx i q) * w (dot_S2000x64_S64x64_S2000x64_1_0_0_1_n_n.rhsIdx i q)) = _
  rw [← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx i ((ValueIdx.contrEquiv1 dot_S2000x64_S64x64_S2000x64_1_0_0_1_n_n 64 rfl rfl).symm k) = blockLeftAt i k := funext fun a => Fin.ext (by
    match a with
    | ⟨0, _⟩ => exact blockLeft_row _ _
    | ⟨1, _⟩ => exact (blockLeft_col _ _).trans hk)
  have er : dot_S2000x64_S64x64_S2000x64_1_0_0_1_n_n.rhsIdx i ((ValueIdx.contrEquiv1 dot_S2000x64_S64x64_S2000x64_1_0_0_1_n_n 64 rfl rfl).symm k) = weightAt i k := funext fun a => Fin.ext (by
    match a with
    | ⟨0, _⟩ => exact (blockRight_row _ _).trans hk
    | ⟨1, _⟩ => exact blockRight_col _ _)
  rw [el, er]

/-! ## The whole product at an entry -/

/-- The left operand's row is the output's row. -/
theorem tableLeft_row (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
/-- The left operand's column is the contracted position. -/
theorem tableLeft_col (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
/-- The right operand's row is the contracted position. -/
theorem tableRight_row (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
/-- The right operand's column is the output's column. -/
theorem tableRight_col (i : Cert.ReferenceIdeal.S100000x64.Idx) (q : Cert.ReferenceIdeal.dot_S100000x64_S64x64_S100000x64_1_0_0_1_n_n.contr.Idx) :
    (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

/-- Entry (row of i, k) of the node table. -/
abbrev tableAt (i : S100000x64.Idx) (k : Fin 64) : S100000x64.Idx := fun a => match a with
  | ⟨0, _⟩ => ⟨(i 0).val, (i 0).isLt⟩
  | ⟨1, _⟩ => ⟨k.val, k.isLt⟩
/-- Entry (k, column of i) of the weight matrix. -/
abbrev weightOf (i : S100000x64.Idx) (k : Fin 64) : S64x64.Idx := fun a => match a with
  | ⟨0, _⟩ => ⟨k.val, k.isLt⟩
  | ⟨1, _⟩ => ⟨(i 1).val, (i 1).isLt⟩

/-- The whole product at an entry: the same sum over the 64 contracted positions. -/
theorem tableProduct_apply (x : FVec Ideal S100000x64 .f32) (w : FVec Ideal S64x64 .f32) (i : S100000x64.Idx) :
    Host.dotGeneral (F := Ideal) (φ₁ := .f32) (φ₂ := .f32) Cert.ReferenceIdeal.dot_S100000x64_S64x64_S100000x64_1_0_0_1_n_n none x w i
      = ∑ k : Fin 64, x (tableAt i k) * w (weightOf i k) := by
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = tableAt i k := funext fun a => Fin.ext (by
    match a with
    | ⟨0, _⟩ => exact tableLeft_row _ _
    | ⟨1, _⟩ => exact (tableLeft_col _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = weightOf i k := funext fun a => Fin.ext (by
    match a with
    | ⟨0, _⟩ => exact (tableRight_row _ _).trans hk
    | ⟨1, _⟩ => exact tableRight_col _ _)
  rw [el, er]

/-! ## From the blocks to the array -/

/-- The printed index maps over the grid: at point t the table's and the result's block is row block t, the weight's
    block is the whole matrix. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The table's block at point t is rows 2000·t … 2000·t + 1999 of the table. -/
theorem tableBlock_apply (c : Dev nD) (t : Fin cfg0.N) (y : S2000x64.Idx) (i : S100000x64.Idx)
    (h0 : (i 0).val = t.val * 2000 + (y 0).val) (h1 : (i 1).val = (y 1).val) :
    (iblk0 VI c 0 t : Vec Ideal S2000x64 .f32) y = (VI c main_arg0 : S100000x64.Idx → Elt Ideal .f32) i := by
  obtain ⟨e0, e1, -⟩ := blockIndex t
  unfold iblk0
  show (VI c main_arg0 : S100000x64.Idx → Elt Ideal .f32) (((cfg0.win 0).blk t).view.emb y) = (VI c main_arg0 : S100000x64.Idx → Elt Ideal .f32) i
  refine congrArg _ (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 64 + 1 * (y 1).val = (i 1).val; rw [e1, h1]; omega

/-- The weight's block at every point is the whole weight matrix. -/
theorem weightBlock_apply (c : Dev nD) (t : Fin cfg0.N) (y : S64x64.Idx) (i : S64x64.Idx)
    (h0 : (i 0).val = (y 0).val) (h1 : (i 1).val = (y 1).val) :
    (iblk0 VI c 1 t : Vec Ideal S64x64 .f32) y = (VI c main_arg2 : S64x64.Idx → Elt Ideal .f32) i := by
  obtain ⟨-, -, e2, e3, -⟩ := blockIndex t
  unfold iblk0
  show (VI c main_arg2 : S64x64.Idx → Elt Ideal .f32) (((cfg0.win 1).blk t).view.emb y) = (VI c main_arg2 : S64x64.Idx → Elt Ideal .f32) i
  refine congrArg _ (funext fun a => Fin.ext ?_)
  match a with
  | ⟨0, _⟩ => show win0_1.index t (0 : Fin 2) * 64 + 1 * (y 0).val = (i 0).val; rw [e2, h0]; omega
  | ⟨1, _⟩ => show win0_1.index t (1 : Fin 2) * 64 + 1 * (y 1).val = (i 1).val; rw [e3, h1]; omega

/-- What point t writes back is block t of the whole product. -/
theorem flushed_eq (c : Dev nD) (t : Fin cfg0.N) :
    (dat0 (F := Ideal) VI c).flushed 2 t = ((cfg0.win 2).blk t).view.read (Elt Ideal)
      (Host.dotGeneral (F := Ideal) (φ₁ := .f32) (φ₂ := .f32) Cert.ReferenceIdeal.dot_S100000x64_S64x64_S100000x64_1_0_0_1_n_n none (VI c main_arg0) (VI c main_arg2)) := by
  show (cfg0.win 2).cut (grid0.coords t) ((dat0 (F := Ideal) VI c).after 2 t) = _
  rw [after0_2]
  unfold out0_2
  rw [View.canon_unit_zero zeroOffsets]
  simp only [View.ld_unit_zero (S := S2000x64) zeroOffsets, View.ld_unit_zero (S := S64x64) zeroOffsets]
  obtain ⟨-, -, -, -, e4, e5⟩ := blockIndex t
  funext j
  show k0_pay1 (F := Ideal) (iblk0 VI c 0 t) (iblk0 VI c 1 t) (win0_2.xinj (grid0.coords t) j)
    = Host.dotGeneral (F := Ideal) (φ₁ := .f32) (φ₂ := .f32) Cert.ReferenceIdeal.dot_S100000x64_S64x64_S100000x64_1_0_0_1_n_n none (VI c main_arg0) (VI c main_arg2) (((cfg0.win 2).blk t).view.emb j)
  refine (blockProduct_apply (iblk0 VI c 0 t) (iblk0 VI c 1 t) (win0_2.xinj (grid0.coords t) j)).trans ?_
  refine Eq.trans ?_ (tableProduct_apply (VI c main_arg0) (VI c main_arg2) (((cfg0.win 2).blk t).view.emb j)).symm
  refine Finset.sum_congr rfl fun k _ => ?_
  have hl := tableBlock_apply VI c t (blockLeftAt (win0_2.xinj (grid0.coords t) j) k) (tableAt (((cfg0.win 2).blk t).view.emb j) k)
    (by show win0_2.index t (0 : Fin 2) * 2000 + 1 * (j 0).val = t.val * 2000 + (j 0).val; rw [e4]; omega) rfl
  have hr := weightBlock_apply VI c t (weightAt (win0_2.xinj (grid0.coords t) j) k) (weightOf (((cfg0.win 2).blk t).view.emb j) k)
    rfl (by show win0_2.index t (1 : Fin 2) * 64 + 1 * (j 1).val = (j 1).val; rw [e5]; omega)
  rw [hl, hr]

/-- An entry of the result lies in point t's block iff each coordinate is in the block's range on its axis. -/
theorem mem_block (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- The 50 row blocks tile the result: row r lies in block r / 2000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 50 := N_0
  have ht : (i 0).val / 2000 < cfg0.N := by show (i 0).val / 2000 < grid0.N; rw [hN]; omega
  obtain ⟨-, -, -, -, e4, e5⟩ := blockIndex ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, ht⟩ (1 : Fin 2) * 64 ≤ (i 1).val ∧ (i 1).val < win0_2.index ⟨(i 0).val / 2000, ht⟩ (1 : Fin 2) * 64 + 64
    rw [e5]; omega

end Lin0

/-- After the 50 write-backs the result array holds the whole product of the table and the weight matrix. -/
theorem lin0_arr (c : Dev nD) :
    (dat0 (F := Ideal) VI c).arrAt 2 cfg0.N
      = Host.dotGeneral (F := Ideal) (φ₁ := .f32) (φ₂ := .f32) Cert.ReferenceIdeal.dot_S100000x64_S64x64_S100000x64_1_0_0_1_n_n none (VI c main_arg0) (VI c main_arg2) :=
  (dat0 (F := Ideal) VI c).arrAt_eq_of_cover 2 _ (fun t _ => Lin0.flushed_eq VI c t) Lin0.covered

end Cert.Bridge
end
-- ==== Proof.Scale1.lean ====
import proofs.«404506_j5342939316741_2_alg».proof.Proof.Gen.KernelIdeal.Frame
import proofs.«404506_j5342939316741_2_alg».proof.Proof.Gen.ReferenceIdeal
import Idealize.ShloMosaic.PureOps.Ideal.Laws
import Idealize.ShloMosaic.Lib.Pipeline.Value
import Idealize.ShloMosaic.Lib.ValueIdx

noncomputable section
namespace Cert.Bridge
open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))
variable (VI : (c : Dev nD) → (b : Ref sig .tc) → Buf (Elt Ideal) ((c : Thread nD τ).loc b))

/-! # Edge messages of layer 1: each gathered row (64 features) times its edge's norm

The region walks the 1700000 edges in 170 row blocks of 10000. At block `t` it multiplies the [10000, 64] block of
gathered features by the [10000, 1] block of norms stretched along the features. So the array it leaves is, at (e, j),
features (e, j) · norm (e, 0): the whole-array product with the norm column stretched to 64 columns. -/

namespace EdgeScale64

/-- The zero offset of a whole-block access. -/
theorem zero_offset : (![0, 0] : Fin 2 → Nat) = fun _ => 0 := funext fun a => by fin_cases a <;> rfl

/-- The block's product at an index: the entry of the row times the row's norm, the norm column read at the same
    row and column 0. -/
theorem block_apply (x0 : Vec F S10000x64 .f32) (x1 : Vec F S10000x1 .f32) (j : S10000x64.Idx) (k : S10000x1.Idx)
    (hk0 : (k 0).val = (j 0).val) (hk1 : (k 1).val = 0) :
    k1_pay1 x0 x1 j = FloatOps.mulf (x0 j) (x1 k) := by
  unfold k1_pay1
  simp only [shapeCast_self]
  show FloatOps.mulf (x0 j) (broadcastTo S10000x64 x1 broadcasts_S10000x1_S10000x64 j) = _
  rw [broadcastTo_apply x1 broadcasts_S10000x1_S10000x64 j k]
  intro a
  match a with
  | ⟨0, _⟩ => exact hk0
  | ⟨1, _⟩ => exact hk1

/-- The three index maps over the grid: at point `t` every window is on row block `t`, column block 0. -/
theorem row_blocks : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The scaled array at an index: the entry times its row's norm, the norm column read at the same row and column 0. -/
theorem scaled_apply (A : Vec F S1700000x64 .f32) (B : Vec F S1700000x1 .f32) (i : S1700000x64.Idx) (k : S1700000x1.Idx)
    (hk0 : (k 0).val = (i 0).val) (hk1 : (k 1).val = 0) :
    mulf A (broadcastInDim Cert.ReferenceIdeal.S1700000x64 ![0, 1] Cert.ReferenceIdeal.Facts₀.bcast_S1700000x1_S1700000x64_0_1 B) i
      = FloatOps.mulf (A i) (B k) := by
  show FloatOps.mulf (A i) (broadcastInDim Cert.ReferenceIdeal.S1700000x64 ![0, 1] Cert.ReferenceIdeal.Facts₀.bcast_S1700000x1_S1700000x64_0_1 B i) = _
  rw [broadcastInDim_apply ![0, 1] Cert.ReferenceIdeal.Facts₀.bcast_S1700000x1_S1700000x64_0_1 B i k]
  intro a
  match a with
  | ⟨0, _⟩ => exact hk0
  | ⟨1, _⟩ => exact hk1

/-- What point `t` writes back is row block `t` of the scaled array. -/
theorem flushed_eq (c : Dev nD) (t : Fin cfg1.N) :
    (dat1 V c).flushed 2 t = ((cfg1.win 2).blk t).view.read (Elt F)
      (mulf (V c main_v31) (broadcastInDim Cert.ReferenceIdeal.S1700000x64 ![0, 1] Cert.ReferenceIdeal.Facts₀.bcast_S1700000x1_S1700000x64_0_1 (V c main_v32))) := by
  show (cfg1.win 2).cut (grid1.coords t) ((dat1 V c).after 2 t) = _
  rw [after1_2]
  unfold out1_2
  rw [View.canon_unit_zero zero_offset]
  simp only [View.ld_unit_zero (S := S10000x64) zero_offset, View.ld_unit_zero (S := S10000x1) zero_offset]
  obtain ⟨e00, e01, e10, e11, e20, e21⟩ := row_blocks t
  funext j
  have hj0 : (j 0).val < 10000 := (j 0).isLt
  have hj1 : (j 1).val < 64 := (j 1).isLt
  refine (block_apply _ _ j (ValueIdx.ix2 ⟨(j 0).val, hj0⟩ ⟨0, by decide⟩) rfl rfl).trans ?_
  show FloatOps.mulf (V c main_v31 (((cfg1.win 0).blk t).view.emb j)) (V c main_v32 (((cfg1.win 1).blk t).view.emb (ValueIdx.ix2 ⟨(j 0).val, hj0⟩ ⟨0, by decide⟩)))
    = mulf (V c main_v31) (broadcastInDim Cert.ReferenceIdeal.S1700000x64 ![0, 1] Cert.ReferenceIdeal.Facts₀.bcast_S1700000x1_S1700000x64_0_1 (V c main_v32)) (((cfg1.win 2).blk t).view.emb j)
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  rw [h0]
  refine (scaled_apply _ _ _ _ ?_ ?_).symm
  · show win1_1.index t (0 : Fin 2) * 10000 + 1 * (j 0).val = win1_2.index t (0 : Fin 2) * 10000 + 1 * (j 0).val; omega
  · show win1_1.index t (1 : Fin 2) * 1 + 1 * 0 = 0; omega

/-- An index of the array is in point `t`'s block iff each coordinate is in the block's range on its axis. -/
theorem mem_blk (t : Fin cfg1.N) (i : S1700000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v33).slice (win1_2.rect t)).set ↔ _
  rw [View.set_slice_whole, Rect.mem_set_unit]
  exact Iff.rfl

/-- The row blocks tile the array: row `r` lies in the block of point `r / 10000`. -/
theorem cover (i : S1700000x64.Idx) :
    ∃ t : Fin cfg1.N, (cfg1.win 2).flush t = true ∧ i ∈ ((cfg1.win 2).blk t).view.set := by
  have hi0 : (i 0).val < 1700000 := (i 0).isLt
  have hi1 : (i 1).val < 64 := (i 1).isLt
  have hN : cfg1.N = 170 := N_1
  let t : Fin cfg1.N := ⟨(i 0).val / 10000, by rw [hN]; omega⟩
  obtain ⟨-, -, -, -, e20, e21⟩ := row_blocks t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

end EdgeScale64

/-- The edge messages of layer 1: after the region the output array is the gathered features, each row times its
    edge's norm. -/
theorem scale1_arr (c : Dev nD) :
    (dat1 (F := F) V c).arrAt 2 cfg1.N
      = mulf (V c main_v31) (broadcastInDim Cert.ReferenceIdeal.S1700000x64 ![0, 1] Cert.ReferenceIdeal.Facts₀.bcast_S1700000x1_S1700000x64_0_1 (V c main_v32)) :=
  (dat1 V c).arrAt_eq_of_cover 2 _ (fun t _ => EdgeScale64.flushed_eq V c t) EdgeScale64.cover

end Cert.Bridge
end
-- ==== Proof.Bias2.lean ====
import proofs.«404506_j5342939316741_2_alg».proof.Proof.Gen.KernelIdeal.Frame
import proofs.«404506_j5342939316741_2_alg».proof.Proof.Gen.ReferenceIdeal
import Idealize.ShloMosaic.PureOps.Ideal.Laws
import Idealize.ShloMosaic.Lib.ValueIdx
import Idealize.ShloMosaic.Lib.Pipeline.Value

noncomputable section
namespace Cert.Bridge
open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))
variable (VI : (c : Dev nD) → (b : Ref sig .tc) → Buf (Elt Ideal) ((c : Thread nD τ).loc b))

namespace BiasRelu
open Idealize.ShloMosaic.ValueIdx

/-- The zero offsets of a whole-block access, as a constant function. -/
theorem zero_offsets : (![0, 0] : Fin 2 → Nat) = fun _ => 0 := funext fun a => by fin_cases a <;> rfl

/-- A row [1, 64] broadcast to a block [2000, 64] reads, at (p, q), the row at (0, q). -/
theorem rowToBlock_apply (r : Vec F S1x64 .f32) (h : S1x64.Broadcasts S2000x64) (p : Fin 2000) (q : Fin 64) :
    broadcastTo S2000x64 r h (ix2 p q) = r (ix2 0 q) :=
  broadcastTo_apply r h (ix2 p q) (ix2 0 q) fun a => by
    match a with
    | ⟨0, _⟩ => rfl
    | ⟨1, _⟩ => rfl

/-- The body's payload at (p, q) of the block: the larger of (row block entry plus the bias entry of column q) and zero. -/
theorem payload_apply (x : Vec F S2000x64 .f32) (r : Vec F S1x64 .f32) (p : Fin 2000) (q : Fin 64) :
    k2_pay1 x r (ix2 p q)
      = FloatOps.maximumf (FloatOps.addf (x (ix2 p q)) (r (ix2 0 q))) (FloatOps.ofBits .f32 0x00000000#32) := by
  unfold k2_pay1
  rw [shapeCast_self, shapeCast_self]
  show FloatOps.maximumf (FloatOps.addf (x (ix2 p q)) (broadcastTo S2000x64 r _ (ix2 p q))) _ = _
  rw [rowToBlock_apply]
  rfl

/-- The whole-array specification at an index i: the larger of (entry plus the bias row's entry k, where k = (0, column of i)) and zero. -/
theorem spec_apply (A : FVec F S100000x64 .f32) (B : FVec F S1x64 .f32)
    (h1 : S1x64.BroadcastsInDim S100000x64 (![0, 1] : Fin 2 → Fin S100000x64.rank))
    (h2 : S_.BroadcastsInDim S100000x64 (![] : Fin 0 → Fin S100000x64.rank))
    (i : S100000x64.Idx) (k : S1x64.Idx) (hk0 : (k 0).val = 0) (hk1 : (k 1).val = (i 1).val) :
    maximumf (addf A (broadcastInDim S100000x64 ![0, 1] h1 B))
        (broadcastInDim S100000x64 ![] h2 (constant S_ .f32 0x00000000#32)) i
      = FloatOps.maximumf (FloatOps.addf (A i) (B k)) (FloatOps.ofBits .f32 0x00000000#32) := by
  show FloatOps.maximumf (FloatOps.addf (A i) (broadcastInDim S100000x64 ![0, 1] h1 B i)) (FloatOps.ofBits .f32 0x00000000#32) = _
  rw [broadcastInDim_apply ![0, 1] h1 B i k (fun a => by
    match a with
    | ⟨0, _⟩ => exact hk0
    | ⟨1, _⟩ => exact hk1)]

/-- The whole-array specification: bias row added to every row, then the larger of that and zero. -/
abbrev spec (c : Dev nD) : FVec F S100000x64 .f32 :=
  maximumf (addf (V c main_v36) (broadcastInDim Cert.ReferenceIdeal.S100000x64 ![0, 1] Cert.ReferenceIdeal.Facts₀.bcast_S1x64_S100000x64_0_1 (V c main_v37)))
    (broadcastInDim Cert.ReferenceIdeal.S100000x64 ![] Cert.ReferenceIdeal.Facts₀.bcast_S_S100000x64 (constant Cert.ReferenceIdeal.S_ .f32 0x00000000#32))

/-- The block index maps over the grid: the row-block windows sit at block (t, 0), the bias row's window stays at (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the specification. -/
theorem flushed_eq (c : Dev nD) (t : Fin cfg2.N) :
    (dat2 (F := F) V c).flushed 2 t = ((cfg2.win 2).blk t).view.read (Elt F) (spec V c) := by
  show (cfg2.win 2).cut (grid2.coords t) ((dat2 V c).after 2 t) = _
  rw [after2_2]
  unfold out2_2
  rw [View.canon_unit_zero zero_offsets]
  simp only [View.ld_unit_zero (S := S2000x64) zero_offsets, View.ld_unit_zero (S := S1x64) zero_offsets]
  obtain ⟨e00, e01, e10, e11, e20, e21⟩ := block_indices t
  refine funext fun (j : S2000x64.Idx) => ?_
  obtain ⟨p, q, rfl⟩ : ∃ (p : Fin 2000) (q : Fin 64), j = ix2 p q := ⟨j 0, j 1, eq_ix2 j⟩
  show k2_pay1 (iblk2 V c 0 t) (iblk2 V c 1 t) (ix2 p q) = spec V c (((cfg2.win 2).blk t).view.emb (ix2 p q))
  refine (payload_apply (iblk2 V c 0 t) (iblk2 V c 1 t) p q).trans ?_
  refine Eq.trans ?_ (spec_apply (V c main_v36) (V c main_v37) _ _ (((cfg2.win 2).blk t).view.emb (ix2 p q)) (ix2 0 q) rfl ?_).symm
  · -- each input block entry is the array's entry at the place the output's block names
    have h0 : ((cfg2.win 0).blk t).view.emb (ix2 p q) = ((cfg2.win 2).blk t).view.emb (ix2 p q) := by
      funext a; apply Fin.ext
      match a with
      | ⟨0, _⟩ => show win2_0.index t (0 : Fin 2) * 2000 + 1 * p.val = win2_2.index t (0 : Fin 2) * 2000 + 1 * p.val; omega
      | ⟨1, _⟩ => show win2_0.index t (1 : Fin 2) * 64 + 1 * q.val = win2_2.index t (1 : Fin 2) * 64 + 1 * q.val; omega
    have h1 : ((cfg2.win 1).blk t).view.emb (ix2 0 q) = (ix2 0 q : S1x64.Idx) := by
      funext a; apply Fin.ext
      match a with
      | ⟨0, _⟩ => show win2_1.index t (0 : Fin 2) * 1 + 1 * 0 = 0; omega
      | ⟨1, _⟩ => show win2_1.index t (1 : Fin 2) * 64 + 1 * q.val = q.val; omega
    show FloatOps.maximumf (FloatOps.addf (V c main_v36 (((cfg2.win 0).blk t).view.emb (ix2 p q))) (V c main_v37 (((cfg2.win 1).blk t).view.emb (ix2 0 q)))) _ = _
    rw [h0, h1]
  · show q.val = win2_2.index t (1 : Fin 2) * 64 + 1 * q.val
    omega

/-- An index of the array lies in point t's block iff each coordinate lies in the block's range on its axis. -/
theorem mem_block (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v38).slice (win2_2.rect t)).set ↔ _
  rw [View.set_slice_whole, Rect.mem_set_unit]
  exact Iff.rfl

/-- Every row r of the array lies in the block of grid point r / 2000, which is written back. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨-, -, -, -, e20, e21⟩ := block_indices t
  have ht : t.val = (i 0).val / 2000 := rfl
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

end BiasRelu

theorem bias2_arr (c : Dev nD) :
    (dat2 (F := F) V c).arrAt 2 cfg2.N
      = maximumf (addf (V c main_v36) (broadcastInDim Cert.ReferenceIdeal.S100000x64 ![0, 1] Cert.ReferenceIdeal.Facts₀.bcast_S1x64_S100000x64_0_1 (V c main_v37)))
          (broadcastInDim Cert.ReferenceIdeal.S100000x64 ![] Cert.ReferenceIdeal.Facts₀.bcast_S_S100000x64 (constant Cert.ReferenceIdeal.S_ .f32 0x00000000#32)) :=
  (dat2 V c).arrAt_eq_of_cover 2 (BiasRelu.spec V c) (fun t _ => BiasRelu.flushed_eq V c t) BiasRelu.covered

end Cert.Bridge
end
-- ==== Proof.Lin3.lean ====
/- Layer 2's linear map, read off the pipeline: the kernel multiplies the 100000 × 64 hidden table by the 64 × 16 weight
   matrix one block of 2000 rows at a time (50 blocks); the reference multiplies the whole table at once. At the
   extended reals the reshape of a block to its own shape and the change of float format are the identity and a block
   product into a zero accumulator is the plain sum over the 64 contracted positions, so entry (r, c) of block t is
   ∑ k, h(2000·t + r, k) · w(k, c), which is entry (2000·t + r, c) of the whole product; the 50 blocks tile the result. -/
import proofs.«404506_j5342939316741_2_alg».proof.Proof.Gen.KernelIdeal.Frame
import proofs.«404506_j5342939316741_2_alg».proof.Proof.Gen.ReferenceIdeal
import Idealize.ShloMosaic.PureOps.Ideal.Laws
import Idealize.ShloMosaic.Lib.ValueIdx
import Idealize.ShloMosaic.Lib.Pipeline.Value

noncomputable section
namespace Cert.Bridge
open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))
variable (VI : (c : Dev nD) → (b : Ref sig .tc) → Buf (Elt Ideal) ((c : Thread nD τ).loc b))

namespace Lin3

/-- The body loads and stores whole blocks: every offset is zero. -/
theorem zeroOffsets : (![0, 0] : Fin 2 → Nat) = fun _ => 0 := funext fun a => by fin_cases a <;> rfl

/-! ## The block product at an entry -/

/-- The left operand's row is the output's row. -/
theorem blockLeft_row (i : S2000x16.Idx) (q : dot_S2000x64_S64x16_S2000x16_1_0_0_1_n_n.contr.Idx) :
    (dot_S2000x64_S64x16_S2000x16_1_0_0_1_n_n.lhsIdx i q 0).val = (i 0).val := by
  unfold DotDims.lhsIdx
  rw [dif_neg (show ¬(0 : Fin S2000x64.rank) ∈ dot_S2000x64_S64x16_S2000x16_1_0_0_1_n_n.lhsBatch by decide), dif_pos (show (0 : Fin S2000x64.rank) ∈ dot_S2000x64_S64x16_S2000x16_1_0_0_1_n_n.lhsNonContracting by decide)]
  rfl
/-- The left operand's column is the contracted position. -/
theorem blockLeft_col (i : S2000x16.Idx) (q : dot_S2000x64_S64x16_S2000x16_1_0_0_1_n_n.contr.Idx) :
    (dot_S2000x64_S64x16_S2000x16_1_0_0_1_n_n.lhsIdx i q 1).val = (q ⟨0, by decide⟩).val :=
  dot_S2000x64_S64x16_S2000x16_1_0_0_1_n_n.lhsIdx_val_of_single rfl i q
/-- The right operand's row is the contracted position. -/
theorem blockRight_row (i : S2000x16.Idx) (q : dot_S2000x64_S64x16_S2000x16_1_0_0_1_n_n.contr.Idx) :
    (dot_S2000x64_S64x16_S2000x16_1_0_0_1_n_n.rhsIdx i q 0).val = (q ⟨0, by decide⟩).val :=
  dot_S2000x64_S64x16_S2000x16_1_0_0_1_n_n.rhsIdx_val_of_single rfl i q
/-- The right operand's column is the output's column. -/
theorem blockRight_col (i : S2000x16.Idx) (q : dot_S2000x64_S64x16_S2000x16_1_0_0_1_n_n.contr.Idx) :
    (dot_S2000x64_S64x16_S2000x16_1_0_0_1_n_n.rhsIdx i q 1).val = (i 1).val := by
  unfold DotDims.rhsIdx
  rw [dif_neg (show ¬(1 : Fin S64x16.rank) ∈ dot_S2000x64_S64x16_S2000x16_1_0_0_1_n_n.rhsBatch by decide), dif_pos (show (1 : Fin S64x16.rank) ∈ dot_S2000x64_S64x16_S2000x16_1_0_0_1_n_n.rhsNonContracting by decide)]
  rfl

/-- Entry (row of i, k) of a block of hidden rows. -/
abbrev blockLeftAt (i : S2000x16.Idx) (k : Fin 64) : S2000x64.Idx := fun a => match a with
  | ⟨0, _⟩ => ⟨(i 0).val, (i 0).isLt⟩
  | ⟨1, _⟩ => ⟨k.val, k.isLt⟩
/-- Entry (k, column of i) of the weight matrix. -/
abbrev weightAt (i : S2000x16.Idx) (k : Fin 64) : S64x16.Idx := fun a => match a with
  | ⟨0, _⟩ => ⟨k.val, k.isLt⟩
  | ⟨1, _⟩ => ⟨(i 1).val, (i 1).isLt⟩

/-- The body's stored value at an entry: the sum over the 64 contracted positions of row entry times weight entry. -/
theorem blockProduct_apply (x : Vec Ideal S2000x64 .f32) (w : Vec Ideal S64x16 .f32) (i : S2000x16.Idx) :
    k3_pay1 (F := Ideal) x w i = ∑ k : Fin 64, x (blockLeftAt i k) * w (weightAt i k) := by
  have hx : shapeCast S2000x64 x shapeCasts_S2000x64_S2000x64 = x := shapeCast_self x _
  refine (Ideal.matmul_constant_zero_apply dot_S2000x64_S64x16_S2000x16_1_0_0_1_n_n none
    (truncf .bf16 (shapeCast S2000x64 x shapeCasts_S2000x64_S2000x64) bitsLt_bf16_f32) (truncf .bf16 w bitsLt_bf16_f32) i).trans ?_
  rw [hx]
  show (∑ q : dot_S2000x64_S64x16_S2000x16_1_0_0_1_n_n.contr.Idx,
      x (dot_S2000x64_S64x16_S2000x16_1_0_0_1_n_n.lhsIdx i q) * w (dot_S2000x64_S64x16_S2000x16_1_0_0_1_n_n.rhsIdx i q)) = _
  rw [← Equiv.sum_comp (ValueIdx.contrEquiv1 dot_S2000x64_S64x16_S2000x16_1_0_0_1_n_n 64 rfl rfl).symm]
  refine Finset.sum_congr rfl fun k _ => ?_
  have hk := ValueIdx.contrEquiv1_symm_val dot_S2000x64_S64x16_S2000x16_1_0_0_1_n_n 64 rfl rfl k
  have el : dot_S2000x64_S64x16_S2000x16_1_0_0_1_n_n.lhsIdx i ((ValueIdx.contrEquiv1 dot_S2000x64_S64x16_S2000x16_1_0_0_1_n_n 64 rfl rfl).symm k) = blockLeftAt i k := funext fun a => Fin.ext (by
    match a with
    | ⟨0, _⟩ => exact blockLeft_row _ _
    | ⟨1, _⟩ => exact (blockLeft_col _ _).trans hk)
  have er : dot_S2000x64_S64x16_S2000x16_1_0_0_1_n_n.rhsIdx i ((ValueIdx.contrEquiv1 dot_S2000x64_S64x16_S2000x16_1_0_0_1_n_n 64 rfl rfl).symm k) = weightAt i k := funext fun a => Fin.ext (by
    match a with
    | ⟨0, _⟩ => exact (blockRight_row _ _).trans hk
    | ⟨1, _⟩ => exact blockRight_col _ _)
  rw [el, er]

/-! ## The whole product at an entry -/

/-- The left operand's row is the output's row. -/
theorem tableLeft_row (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x16_S100000x16_1_0_0_1_n_n.lhsBatch by decide), dif_pos (show (0 : Fin Cert.ReferenceIdeal.S100000x64.rank) ∈ Cert.ReferenceIdeal.dot_S100000x64_S64x16_S100000x16_1_0_0_1_n_n.lhsNonContracting by decide)]
  rfl
/-- The left operand's column is the contracted position. -/
theorem tableLeft_col (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.lhsIdx i q 1).val = (q ⟨0, by decide⟩).val :=
  Cert.ReferenceIdeal.dot_S100000x64_S64x16_S100000x16_1_0_0_1_n_n.lhsIdx_val_of_single rfl i q
/-- The right operand's row is the contracted position. -/
theorem tableRight_row (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.rhsIdx i q 0).val = (q ⟨0, by decide⟩).val :=
  Cert.ReferenceIdeal.dot_S100000x64_S64x16_S100000x16_1_0_0_1_n_n.rhsIdx_val_of_single rfl i q
/-- The right operand's column is the output's column. -/
theorem tableRight_col (i : Cert.ReferenceIdeal.S100000x16.Idx) (q : Cert.ReferenceIdeal.dot_S100000x64_S64x16_S100000x16_1_0_0_1_n_n.contr.Idx) :
    (Cert.ReferenceIdeal.dot_S100000x64_S64x16_S100000x16_1_0_0_1_n_n.rhsIdx i q 1).val = (i 1).val := by
  unfold DotDims.rhsIdx
  rw [dif_neg (show ¬(1 : Fin Cert.ReferenceIdeal.S64x16.rank) ∈ Cert.ReferenceIdeal.dot_S100000x64_S64x16_S100000x16_1_0_0_1_n_n.rhsBatch by decide), dif_pos (show (1 : Fin Cert.ReferenceIdeal.S64x16.rank) ∈ Cert.ReferenceIdeal.dot_S100000x64_S64x16_S100000x16_1_0_0_1_n_n.rhsNonContracting by decide)]
  rfl

/-- Entry (row of i, k) of the hidden table. -/
abbrev tableAt (i : S100000x16.Idx) (k : Fin 64) : S100000x64.Idx := fun a => match a with
  | ⟨0, _⟩ => ⟨(i 0).val, (i 0).isLt⟩
  | ⟨1, _⟩ => ⟨k.val, k.isLt⟩
/-- Entry (k, column of i) of the weight matrix. -/
abbrev weightOf (i : S100000x16.Idx) (k : Fin 64) : S64x16.Idx := fun a => match a with
  | ⟨0, _⟩ => ⟨k.val, k.isLt⟩
  | ⟨1, _⟩ => ⟨(i 1).val, (i 1).isLt⟩

/-- The whole product at an entry: the same sum over the 64 contracted positions. -/
theorem tableProduct_apply (x : FVec Ideal S100000x64 .f32) (w : FVec Ideal S64x16 .f32) (i : S100000x16.Idx) :
    Host.dotGeneral (F := Ideal) (φ₁ := .f32) (φ₂ := .f32) Cert.ReferenceIdeal.dot_S100000x64_S64x16_S100000x16_1_0_0_1_n_n none x w i
      = ∑ k : Fin 64, x (tableAt i k) * w (weightOf i k) := by
  simp only [Host.dotGeneral]
  rw [Ideal.dotGeneral_apply, ← Equiv.sum_comp (ValueIdx.contrEquiv1 Cert.ReferenceIdeal.dot_S100000x64_S64x16_S100000x16_1_0_0_1_n_n 64 rfl rfl).symm]
  refine Finset.sum_congr rfl fun k _ => ?_
  have hk := ValueIdx.contrEquiv1_symm_val Cert.ReferenceIdeal.dot_S100000x64_S64x16_S100000x16_1_0_0_1_n_n 64 rfl rfl k
  have el : Cert.ReferenceIdeal.dot_S100000x64_S64x16_S100000x16_1_0_0_1_n_n.lhsIdx i ((ValueIdx.contrEquiv1 Cert.ReferenceIdeal.dot_S100000x64_S64x16_S100000x16_1_0_0_1_n_n 64 rfl rfl).symm k) = tableAt i k := funext fun a => Fin.ext (by
    match a with
    | ⟨0, _⟩ => exact tableLeft_row _ _
    | ⟨1, _⟩ => exact (tableLeft_col _ _).trans hk)
  have er : Cert.ReferenceIdeal.dot_S100000x64_S64x16_S100000x16_1_0_0_1_n_n.rhsIdx i ((ValueIdx.contrEquiv1 Cert.ReferenceIdeal.dot_S100000x64_S64x16_S100000x16_1_0_0_1_n_n 64 rfl rfl).symm k) = weightOf i k := funext fun a => Fin.ext (by
    match a with
    | ⟨0, _⟩ => exact (tableRight_row _ _).trans hk
    | ⟨1, _⟩ => exact tableRight_col _ _)
  rw [el, er]

/-! ## From the blocks to the array -/

/-- The printed index maps over the grid: at point t the hidden table's and the result's block is row block t, the
    weight's block is the whole matrix. -/
theorem blockIndex : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The hidden table's block at point t is rows 2000·t … 2000·t + 1999 of the table. -/
theorem tableBlock_apply (c : Dev nD) (t : Fin cfg3.N) (y : S2000x64.Idx) (i : S100000x64.Idx)
    (h0 : (i 0).val = t.val * 2000 + (y 0).val) (h1 : (i 1).val = (y 1).val) :
    (iblk3 VI c 0 t : Vec Ideal S2000x64 .f32) y = (VI c main_v38 : S100000x64.Idx → Elt Ideal .f32) i := by
  obtain ⟨e0, e1, -⟩ := blockIndex t
  unfold iblk3
  show (VI c main_v38 : S100000x64.Idx → Elt Ideal .f32) (((cfg3.win 0).blk t).view.emb y) = (VI c main_v38 : S100000x64.Idx → Elt Ideal .f32) i
  refine congrArg _ (funext fun a => Fin.ext ?_)
  match a with
  | ⟨0, _⟩ => show win3_0.index t (0 : Fin 2) * 2000 + 1 * (y 0).val = (i 0).val; rw [e0, h0]; omega
  | ⟨1, _⟩ => show win3_0.index t (1 : Fin 2) * 64 + 1 * (y 1).val = (i 1).val; rw [e1, h1]; omega

/-- The weight's block at every point is the whole weight matrix. -/
theorem weightBlock_apply (c : Dev nD) (t : Fin cfg3.N) (y : S64x16.Idx) (i : S64x16.Idx)
    (h0 : (i 0).val = (y 0).val) (h1 : (i 1).val = (y 1).val) :
    (iblk3 VI c 1 t : Vec Ideal S64x16 .f32) y = (VI c main_arg4 : S64x16.Idx → Elt Ideal .f32) i := by
  obtain ⟨-, -, e2, e3, -⟩ := blockIndex t
  unfold iblk3
  show (VI c main_arg4 : S64x16.Idx → Elt Ideal .f32) (((cfg3.win 1).blk t).view.emb y) = (VI c main_arg4 : S64x16.Idx → Elt Ideal .f32) i
  refine congrArg _ (funext fun a => Fin.ext ?_)
  match a with
  | ⟨0, _⟩ => show win3_1.index t (0 : Fin 2) * 64 + 1 * (y 0).val = (i 0).val; rw [e2, h0]; omega
  | ⟨1, _⟩ => show win3_1.index t (1 : Fin 2) * 16 + 1 * (y 1).val = (i 1).val; rw [e3, h1]; omega

/-- What point t writes back is block t of the whole product. -/
theorem flushed_eq (c : Dev nD) (t : Fin cfg3.N) :
    (dat3 (F := Ideal) VI c).flushed 2 t = ((cfg3.win 2).blk t).view.read (Elt Ideal)
      (Host.dotGeneral (F := Ideal) (φ₁ := .f32) (φ₂ := .f32) Cert.ReferenceIdeal.dot_S100000x64_S64x16_S100000x16_1_0_0_1_n_n none (VI c main_v38) (VI c main_arg4)) := by
  show (cfg3.win 2).cut (grid3.coords t) ((dat3 (F := Ideal) VI c).after 2 t) = _
  rw [after3_2]
  unfold out3_2
  rw [View.canon_unit_zero zeroOffsets]
  simp only [View.ld_unit_zero (S := S2000x64) zeroOffsets, View.ld_unit_zero (S := S64x16) zeroOffsets]
  obtain ⟨-, -, -, -, e4, e5⟩ := blockIndex t
  funext j
  show k3_pay1 (F := Ideal) (iblk3 VI c 0 t) (iblk3 VI c 1 t) (win3_2.xinj (grid3.coords t) j)
    = Host.dotGeneral (F := Ideal) (φ₁ := .f32) (φ₂ := .f32) Cert.ReferenceIdeal.dot_S100000x64_S64x16_S100000x16_1_0_0_1_n_n none (VI c main_v38) (VI c main_arg4) (((cfg3.win 2).blk t).view.emb j)
  refine (blockProduct_apply (iblk3 VI c 0 t) (iblk3 VI c 1 t) (win3_2.xinj (grid3.coords t) j)).trans ?_
  refine Eq.trans ?_ (tableProduct_apply (VI c main_v38) (VI c main_arg4) (((cfg3.win 2).blk t).view.emb j)).symm
  refine Finset.sum_congr rfl fun k _ => ?_
  have hl := tableBlock_apply VI c t (blockLeftAt (win3_2.xinj (grid3.coords t) j) k) (tableAt (((cfg3.win 2).blk t).view.emb j) k)
    (by show win3_2.index t (0 : Fin 2) * 2000 + 1 * (j 0).val = t.val * 2000 + (j 0).val; rw [e4]; omega) rfl
  have hr := weightBlock_apply VI c t (weightAt (win3_2.xinj (grid3.coords t) j) k) (weightOf (((cfg3.win 2).blk t).view.emb j) k)
    rfl (by show win3_2.index t (1 : Fin 2) * 16 + 1 * (j 1).val = (j 1).val; rw [e5]; omega)
  rw [hl, hr]

/-- An entry of the result lies in point t's block iff each coordinate is in the block's range on its axis. -/
theorem mem_block (t : Fin cfg3.N) (i : S100000x16.Idx) :
    i ∈ ((cfg3.win 2).blk t).view.set ↔ ∀ a : Fin 2, win3_2.index t a * S2000x16.size a ≤ (i a).val ∧ (i a).val < win3_2.index t a * S2000x16.size a + S2000x16.size a := by
  show i ∈ ((View.whole main_v39).slice (win3_2.rect t)).set ↔ _
  rw [View.set_slice_whole, Rect.mem_set_unit]
  exact Iff.rfl

/-- The 50 row blocks tile the result: row r lies in block r / 2000. -/
theorem covered (i : S100000x16.Idx) :
    ∃ t : Fin cfg3.N, (cfg3.win 2).flush t = true ∧ i ∈ ((cfg3.win 2).blk t).view.set := by
  have hi0 : (i 0).val < 100000 := (i 0).isLt
  have hi1 : (i 1).val < 16 := (i 1).isLt
  have hN : grid3.N = 50 := N_3
  have ht : (i 0).val / 2000 < cfg3.N := by show (i 0).val / 2000 < grid3.N; rw [hN]; omega
  obtain ⟨-, -, -, -, e4, e5⟩ := blockIndex ⟨(i 0).val / 2000, ht⟩
  refine ⟨⟨(i 0).val / 2000, ht⟩, flush3_2 _, ?_⟩
  rw [mem_block]
  intro a
  match a with
  | ⟨0, _⟩ =>
    show win3_2.index ⟨(i 0).val / 2000, ht⟩ (0 : Fin 2) * 2000 ≤ (i 0).val ∧ (i 0).val < win3_2.index ⟨(i 0).val / 2000, ht⟩ (0 : Fin 2) * 2000 + 2000
    rw [e4]; show (i 0).val / 2000 * 2000 ≤ (i 0).val ∧ (i 0).val < (i 0).val / 2000 * 2000 + 2000; omega
  | ⟨1, _⟩ =>
    show win3_2.index ⟨(i 0).val / 2000, ht⟩ (1 : Fin 2) * 16 ≤ (i 1).val ∧ (i 1).val < win3_2.index ⟨(i 0).val / 2000, ht⟩ (1 : Fin 2) * 16 + 16
    rw [e5]; omega

end Lin3

/-- After the 50 write-backs the result array holds the whole product of the hidden table and the weight matrix. -/
theorem lin3_arr (c : Dev nD) :
    (dat3 (F := Ideal) VI c).arrAt 2 cfg3.N
      = Host.dotGeneral (F := Ideal) (φ₁ := .f32) (φ₂ := .f32) Cert.ReferenceIdeal.dot_S100000x64_S64x16_S100000x16_1_0_0_1_n_n none (VI c main_v38) (VI c main_arg4) :=
  (dat3 (F := Ideal) VI c).arrAt_eq_of_cover 2 _ (fun t _ => Lin3.flushed_eq VI c t) Lin3.covered

end Cert.Bridge
end
-- ==== Proof.Scale4.lean ====
import proofs.«404506_j5342939316741_2_alg».proof.Proof.Gen.KernelIdeal.Frame
import proofs.«404506_j5342939316741_2_alg».proof.Proof.Gen.ReferenceIdeal
import Idealize.ShloMosaic.PureOps.Ideal.Laws
import Idealize.ShloMosaic.Lib.Pipeline.Value
import Idealize.ShloMosaic.Lib.ValueIdx

noncomputable section
namespace Cert.Bridge
open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))
variable (VI : (c : Dev nD) → (b : Ref sig .tc) → Buf (Elt Ideal) ((c : Thread nD τ).loc b))

/-! # Edge messages of layer 2: each gathered row (16 features) times its edge's norm

The region walks the 1700000 edges in 170 row blocks of 10000. At block `t` it multiplies the [10000, 16] block of
gathered features by the [10000, 1] block of norms stretched along the features. So the array it leaves is, at (e, j),
features (e, j) · norm (e, 0): the whole-array product with the norm column stretched to 16 columns. -/

namespace EdgeScale16

/-- The zero offset of a whole-block access. -/
theorem zero_offset : (![0, 0] : Fin 2 → Nat) = fun _ => 0 := funext fun a => by fin_cases a <;> rfl

/-- The block's product at an index: the entry of the row times the row's norm, the norm column read at the same
    row and column 0. -/
theorem block_apply (x0 : Vec F S10000x16 .f32) (x1 : Vec F S10000x1 .f32) (j : S10000x16.Idx) (k : S10000x1.Idx)
    (hk0 : (k 0).val = (j 0).val) (hk1 : (k 1).val = 0) :
    k4_pay1 x0 x1 j = FloatOps.mulf (x0 j) (x1 k) := by
  unfold k4_pay1
  simp only [shapeCast_self]
  show FloatOps.mulf (x0 j) (broadcastTo S10000x16 x1 broadcasts_S10000x1_S10000x16 j) = _
  rw [broadcastTo_apply x1 broadcasts_S10000x1_S10000x16 j k]
  intro a
  match a with
  | ⟨0, _⟩ => exact hk0
  | ⟨1, _⟩ => exact hk1

/-- The three index maps over the grid: at point `t` every window is on row block `t`, column block 0. -/
theorem row_blocks : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The scaled array at an index: the entry times its row's norm, the norm column read at the same row and column 0. -/
theorem scaled_apply (A : Vec F S1700000x16 .f32) (B : Vec F S1700000x1 .f32) (i : S1700000x16.Idx) (k : S1700000x1.Idx)
    (hk0 : (k 0).val = (i 0).val) (hk1 : (k 1).val = 0) :
    mulf A (broadcastInDim Cert.ReferenceIdeal.S1700000x16 ![0, 1] Cert.ReferenceIdeal.Facts₀.bcast_S1700000x1_S1700000x16_0_1 B) i
      = FloatOps.mulf (A i) (B k) := by
  show FloatOps.mulf (A i) (broadcastInDim Cert.ReferenceIdeal.S1700000x16 ![0, 1] Cert.ReferenceIdeal.Facts₀.bcast_S1700000x1_S1700000x16_0_1 B i) = _
  rw [broadcastInDim_apply ![0, 1] Cert.ReferenceIdeal.Facts₀.bcast_S1700000x1_S1700000x16_0_1 B i k]
  intro a
  match a with
  | ⟨0, _⟩ => exact hk0
  | ⟨1, _⟩ => exact hk1

/-- What point `t` writes back is row block `t` of the scaled array. -/
theorem flushed_eq (c : Dev nD) (t : Fin cfg4.N) :
    (dat4 V c).flushed 2 t = ((cfg4.win 2).blk t).view.read (Elt F)
      (mulf (V c main_v40) (broadcastInDim Cert.ReferenceIdeal.S1700000x16 ![0, 1] Cert.ReferenceIdeal.Facts₀.bcast_S1700000x1_S1700000x16_0_1 (V c main_v41))) := by
  show (cfg4.win 2).cut (grid4.coords t) ((dat4 V c).after 2 t) = _
  rw [after4_2]
  unfold out4_2
  rw [View.canon_unit_zero zero_offset]
  simp only [View.ld_unit_zero (S := S10000x16) zero_offset, View.ld_unit_zero (S := S10000x1) zero_offset]
  obtain ⟨e00, e01, e10, e11, e20, e21⟩ := row_blocks t
  funext j
  have hj0 : (j 0).val < 10000 := (j 0).isLt
  have hj1 : (j 1).val < 16 := (j 1).isLt
  refine (block_apply _ _ j (ValueIdx.ix2 ⟨(j 0).val, hj0⟩ ⟨0, by decide⟩) rfl rfl).trans ?_
  show FloatOps.mulf (V c main_v40 (((cfg4.win 0).blk t).view.emb j)) (V c main_v41 (((cfg4.win 1).blk t).view.emb (ValueIdx.ix2 ⟨(j 0).val, hj0⟩ ⟨0, by decide⟩)))
    = mulf (V c main_v40) (broadcastInDim Cert.ReferenceIdeal.S1700000x16 ![0, 1] Cert.ReferenceIdeal.Facts₀.bcast_S1700000x1_S1700000x16_0_1 (V c main_v41)) (((cfg4.win 2).blk t).view.emb j)
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 16 + 1 * (j 1).val = win4_2.index t (1 : Fin 2) * 16 + 1 * (j 1).val; omega
  rw [h0]
  refine (scaled_apply _ _ _ _ ?_ ?_).symm
  · show win4_1.index t (0 : Fin 2) * 10000 + 1 * (j 0).val = win4_2.index t (0 : Fin 2) * 10000 + 1 * (j 0).val; omega
  · show win4_1.index t (1 : Fin 2) * 1 + 1 * 0 = 0; omega

/-- An index of the array is in point `t`'s block iff each coordinate is in the block's range on its axis. -/
theorem mem_blk (t : Fin cfg4.N) (i : S1700000x16.Idx) :
    i ∈ ((cfg4.win 2).blk t).view.set ↔ ∀ a : Fin 2, win4_2.index t a * S10000x16.size a ≤ (i a).val ∧ (i a).val < win4_2.index t a * S10000x16.size a + S10000x16.size a := by
  show i ∈ ((View.whole main_v42).slice (win4_2.rect t)).set ↔ _
  rw [View.set_slice_whole, Rect.mem_set_unit]
  exact Iff.rfl

/-- The row blocks tile the array: row `r` lies in the block of point `r / 10000`. -/
theorem cover (i : S1700000x16.Idx) :
    ∃ t : Fin cfg4.N, (cfg4.win 2).flush t = true ∧ i ∈ ((cfg4.win 2).blk t).view.set := by
  have hi0 : (i 0).val < 1700000 := (i 0).isLt
  have hi1 : (i 1).val < 16 := (i 1).isLt
  have hN : cfg4.N = 170 := N_4
  let t : Fin cfg4.N := ⟨(i 0).val / 10000, by rw [hN]; omega⟩
  obtain ⟨-, -, -, -, e20, e21⟩ := row_blocks t
  have ht : t.val = (i 0).val / 10000 := rfl
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 16 ≤ (i 1).val ∧ (i 1).val < win4_2.index t (1 : Fin 2) * 16 + 16; omega

end EdgeScale16

/-- The edge messages of layer 2: after the region the output array is the gathered features, each row times its
    edge's norm. -/
theorem scale4_arr (c : Dev nD) :
    (dat4 (F := F) V c).arrAt 2 cfg4.N
      = mulf (V c main_v40) (broadcastInDim Cert.ReferenceIdeal.S1700000x16 ![0, 1] Cert.ReferenceIdeal.Facts₀.bcast_S1700000x1_S1700000x16_0_1 (V c main_v41)) :=
  (dat4 V c).arrAt_eq_of_cover 2 _ (fun t _ => EdgeScale16.flushed_eq V c t) EdgeScale16.cover

end Cert.Bridge
end
-- ==== Proof.Bias5.lean ====
import proofs.«404506_j5342939316741_2_alg».proof.Proof.Gen.KernelIdeal.Frame
import proofs.«404506_j5342939316741_2_alg».proof.Proof.Gen.ReferenceIdeal
import Idealize.ShloMosaic.PureOps.Ideal.Laws
import Idealize.ShloMosaic.Lib.ValueIdx
import Idealize.ShloMosaic.Lib.Pipeline.Value

noncomputable section
namespace Cert.Bridge
open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))
variable (VI : (c : Dev nD) → (b : Ref sig .tc) → Buf (Elt Ideal) ((c : Thread nD τ).loc b))

namespace BiasAdd
open Idealize.ShloMosaic.ValueIdx

/-- The zero offsets of a whole-block access, as a constant function. -/
theorem zero_offsets : (![0, 0] : Fin 2 → Nat) = fun _ => 0 := funext fun a => by fin_cases a <;> rfl

/-- A row [1, 16] broadcast to a block [2000, 16] reads, at (p, q), the row at (0, q). -/
theorem rowToBlock_apply (r : Vec F S1x16 .f32) (h : S1x16.Broadcasts S2000x16) (p : Fin 2000) (q : Fin 16) :
    broadcastTo S2000x16 r h (ix2 p q) = r (ix2 0 q) :=
  broadcastTo_apply r h (ix2 p q) (ix2 0 q) fun a => by
    match a with
    | ⟨0, _⟩ => rfl
    | ⟨1, _⟩ => rfl

/-- The body's payload at (p, q) of the block: the row block's entry plus the bias entry of column q. -/
theorem payload_apply (x : Vec F S2000x16 .f32) (r : Vec F S1x16 .f32) (p : Fin 2000) (q : Fin 16) :
    k5_pay1 x r (ix2 p q) = FloatOps.addf (x (ix2 p q)) (r (ix2 0 q)) := by
  unfold k5_pay1
  rw [shapeCast_self, shapeCast_self]
  show FloatOps.addf (x (ix2 p q)) (broadcastTo S2000x16 r _ (ix2 p q)) = _
  rw [rowToBlock_apply]

/-- The whole-array specification at an index i: the entry plus the bias row's entry k, where k = (0, column of i). -/
theorem spec_apply (A : FVec F S100000x16 .f32) (B : FVec F S1x16 .f32)
    (h1 : S1x16.BroadcastsInDim S100000x16 (![0, 1] : Fin 2 → Fin S100000x16.rank))
    (i : S100000x16.Idx) (k : S1x16.Idx) (hk0 : (k 0).val = 0) (hk1 : (k 1).val = (i 1).val) :
    addf A (broadcastInDim S100000x16 ![0, 1] h1 B) i = FloatOps.addf (A i) (B k) := by
  show FloatOps.addf (A i) (broadcastInDim S100000x16 ![0, 1] h1 B i) = _
  rw [broadcastInDim_apply ![0, 1] h1 B i k (fun a => by
    match a with
    | ⟨0, _⟩ => exact hk0
    | ⟨1, _⟩ => exact hk1)]

/-- The whole-array specification: the bias row added to every row. -/
abbrev spec (c : Dev nD) : FVec F S100000x16 .f32 :=
  addf (V c main_v45) (broadcastInDim Cert.ReferenceIdeal.S100000x16 ![0, 1] Cert.ReferenceIdeal.Facts₀.bcast_S1x16_S100000x16_0_1 (V c main_v46))

/-- The block index maps over the grid: the row-block windows sit at block (t, 0), the bias row's window stays at (0, 0). -/
theorem block_indices : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What grid point t writes back is block t of the specification. -/
theorem flushed_eq (c : Dev nD) (t : Fin cfg5.N) :
    (dat5 (F := F) V c).flushed 2 t = ((cfg5.win 2).blk t).view.read (Elt F) (spec V c) := by
  show (cfg5.win 2).cut (grid5.coords t) ((dat5 V c).after 2 t) = _
  rw [after5_2]
  unfold out5_2
  rw [View.canon_unit_zero zero_offsets]
  simp only [View.ld_unit_zero (S := S2000x16) zero_offsets, View.ld_unit_zero (S := S1x16) zero_offsets]
  obtain ⟨e00, e01, e10, e11, e20, e21⟩ := block_indices t
  refine funext fun (j : S2000x16.Idx) => ?_
  obtain ⟨p, q, rfl⟩ : ∃ (p : Fin 2000) (q : Fin 16), j = ix2 p q := ⟨j 0, j 1, eq_ix2 j⟩
  show k5_pay1 (iblk5 V c 0 t) (iblk5 V c 1 t) (ix2 p q) = spec V c (((cfg5.win 2).blk t).view.emb (ix2 p q))
  refine (payload_apply (iblk5 V c 0 t) (iblk5 V c 1 t) p q).trans ?_
  refine Eq.trans ?_ (spec_apply (V c main_v45) (V c main_v46) _ (((cfg5.win 2).blk t).view.emb (ix2 p q)) (ix2 0 q) rfl ?_).symm
  · -- each input block entry is the array's entry at the place the output's block names
    have h0 : ((cfg5.win 0).blk t).view.emb (ix2 p q) = ((cfg5.win 2).blk t).view.emb (ix2 p q) := by
      funext a; apply Fin.ext
      match a with
      | ⟨0, _⟩ => show win5_0.index t (0 : Fin 2) * 2000 + 1 * p.val = win5_2.index t (0 : Fin 2) * 2000 + 1 * p.val; omega
      | ⟨1, _⟩ => show win5_0.index t (1 : Fin 2) * 16 + 1 * q.val = win5_2.index t (1 : Fin 2) * 16 + 1 * q.val; omega
    have h1 : ((cfg5.win 1).blk t).view.emb (ix2 0 q) = (ix2 0 q : S1x16.Idx) := by
      funext a; apply Fin.ext
      match a with
      | ⟨0, _⟩ => show win5_1.index t (0 : Fin 2) * 1 + 1 * 0 = 0; omega
      | ⟨1, _⟩ => show win5_1.index t (1 : Fin 2) * 16 + 1 * q.val = q.val; omega
    show FloatOps.addf (V c main_v45 (((cfg5.win 0).blk t).view.emb (ix2 p q))) (V c main_v46 (((cfg5.win 1).blk t).view.emb (ix2 0 q))) = _
    rw [h0, h1]
  · show q.val = win5_2.index t (1 : Fin 2) * 16 + 1 * q.val
    omega

/-- An index of the array lies in point t's block iff each coordinate lies in the block's range on its axis. -/
theorem mem_block (t : Fin cfg5.N) (i : S100000x16.Idx) :
    i ∈ ((cfg5.win 2).blk t).view.set ↔ ∀ a : Fin 2, win5_2.index t a * S2000x16.size a ≤ (i a).val ∧ (i a).val < win5_2.index t a * S2000x16.size a + S2000x16.size a := by
  show i ∈ ((View.whole main_v47).slice (win5_2.rect t)).set ↔ _
  rw [View.set_slice_whole, Rect.mem_set_unit]
  exact Iff.rfl

/-- Every row r of the array lies in the block of grid point r / 2000, which is written back. -/
theorem covered (i : S100000x16.Idx) :
    ∃ t : Fin cfg5.N, (cfg5.win 2).flush t = true ∧ i ∈ ((cfg5.win 2).blk t).view.set := by
  have hi0 : (i 0).val < 100000 := (i 0).isLt
  have hi1 : (i 1).val < 16 := (i 1).isLt
  have hN : cfg5.N = 50 := N_5
  let t : Fin cfg5.N := ⟨(i 0).val / 2000, by rw [hN]; omega⟩
  obtain ⟨-, -, -, -, e20, e21⟩ := block_indices t
  have ht : t.val = (i 0).val / 2000 := rfl
  refine ⟨t, flush5_2 t, ?_⟩
  rw [mem_block]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 16 ≤ (i 1).val ∧ (i 1).val < win5_2.index t (1 : Fin 2) * 16 + 16; omega

end BiasAdd

theorem bias5_arr (c : Dev nD) :
    (dat5 (F := F) V c).arrAt 2 cfg5.N
      = addf (V c main_v45) (broadcastInDim Cert.ReferenceIdeal.S100000x16 ![0, 1] Cert.ReferenceIdeal.Facts₀.bcast_S1x16_S100000x16_0_1 (V c main_v46)) :=
  (dat5 V c).arrAt_eq_of_cover 2 (BiasAdd.spec V c) (fun t _ => BiasAdd.flushed_eq V c t) BiasAdd.covered

end Cert.Bridge
end
-- ==== Proof.Walk.lean ====
/- What the kernel program leaves in its result buffer, boundary by boundary.

   The program is host operations, a region, host operations, a region, and so on; the generated frame names the
   buffer contents at every boundary (W0 at launch, ..., W15 at the return). This module reads the buffers the
   computation flows through at each boundary and identifies each with a stage of the reference (its val_main_vN):
   the sources, targets and edge weights before the first region; x . W1 after region 0; the gathered rows (the
   kernel's fill-mode take is the reference's gather where every source names a node); the scaled messages after
   region 1; their scatter-add into the targets; bias and relu after region 2; and the same once more for the second
   layer, ending with the result buffer at the reference's last stage. Each host stretch is read operation by
   operation; each region's output array is the whole-array function proved in that region's module; a buffer that
   no region and no later host operation writes is carried along unchanged. Nothing here uses finiteness: both
   programs apply the same operations to the same values, stage by stage. -/
import proofs.«404506_j5342939316741_2_alg».proof.Proof.Gen.KernelIdeal.Frame
import proofs.«404506_j5342939316741_2_alg».proof.Proof.RefRead
import proofs.«404506_j5342939316741_2_alg».proof.Proof.Idx
import proofs.«404506_j5342939316741_2_alg».proof.Proof.TakeFill
import proofs.«404506_j5342939316741_2_alg».proof.Proof.Relayout
import proofs.«404506_j5342939316741_2_alg».proof.Proof.Lin0
import proofs.«404506_j5342939316741_2_alg».proof.Proof.Scale1
import proofs.«404506_j5342939316741_2_alg».proof.Proof.Bias2
import proofs.«404506_j5342939316741_2_alg».proof.Proof.Lin3
import proofs.«404506_j5342939316741_2_alg».proof.Proof.Scale4
import proofs.«404506_j5342939316741_2_alg».proof.Proof.Bias5
import Idealize.ShloMosaic.Lib.StableHlo.Run

set_option maxRecDepth 16384
noncomputable section
namespace Cert.Bridge
open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- Contents carried to a typed reference's buffer and back are the contents. -/
theorem ofBuf_toBuf_id {T : BufTy} (x : StableHlo.TRef sig T) (v : T.Contents (Elt F)) : x.ofBuf (x.toBuf v) = v := by
  obtain ⟨r, rfl, h2, h3⟩ := x
  rfl

/-- Read at the buffer's own type, a typed reference's transport is the identity. -/
theorem ofBuf_id (r : Ref sig .tc) (h1 : r.ty = r.ty) (h2 : r.space ≠ .host) (h3 : r.isScoped = false) (v : r.ty.Contents (Elt F)) :
    (StableHlo.TRef.of (T := r.ty) r h1 h2 h3).ofBuf v = v := rfl

theorem toBuf_id (r : Ref sig .tc) (h1 : r.ty = r.ty) (h2 : r.space ≠ .host) (h3 : r.isScoped = false) (v : r.ty.Contents (Elt F)) :
    (StableHlo.TRef.of (T := r.ty) r h1 h2 h3).toBuf v = v := rfl

section Walk
variable (c : Dev nD)

/-! ## Before the first region: sources, targets and the edge weights are the reference's own stages -/

theorem W3_src : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  after_results
  rfl

theorem W3_dst : W3 m ρ c (Proc.devRef .tc main_v6) = Cert.ReferenceIdeal.ReadP.val_main_v6 (F := F) (m ((c : Thread nD τ).loc main_arg1)) := by
  show StableHlo.after hostOps0_2 (StableHlo.after hostOps0_1 (StableHlo.after hostOps0 (W0 m ρ c))) (Proc.devRef .tc main_v6) = _
  after_results
  rfl

theorem W3_norm : W3 m ρ c (Proc.devRef .tc main_v29) = Cert.ReferenceIdeal.ReadP.val_main_v29 (F := F) (m ((c : Thread nD τ).loc main_arg1)) := by
  show StableHlo.after hostOps0_2 (StableHlo.after hostOps0_1 (StableHlo.after hostOps0 (W0 m ρ c))) (Proc.devRef .tc main_v29) = _
  after_results_simp <;> rfl

theorem W3_arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem W3_arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

/-! ## Layer 1 -/

/-- Region 0 leaves x · W1 in its output array. -/
theorem W4_lin (mI : (ℓ : Loc nD τ sig) → Buf (Elt Ideal) ℓ) :
    W4 mI ρ c (Proc.devRef .tc main_v30)
      = Cert.ReferenceIdeal.ReadP.val_main_v30 (F := Ideal) (mI ((c : Thread nD τ).loc main_arg0)) (mI ((c : Thread nD τ).loc main_arg2)) := by
  refine (W4_arr mI ρ c 2).trans ?_
  rw [lin0_arr (V3 mI ρ) c]
  have e0 : V3 mI ρ c main_arg0 = mI ((c : Thread nD τ).loc main_arg0) := W3_arg0 mI ρ c
  have e2 : V3 mI ρ c main_arg2 = mI ((c : Thread nD τ).loc main_arg2) := W3_arg2 mI ρ c
  rw [e0, e2]
  rfl

/-- Region 0 writes none of the buffers computed before it. -/
theorem W4_src : W4 m ρ c (Proc.devRef .tc main_v3) = srcOf (m ((c : Thread nD τ).loc main_arg1)) :=
  (W4_of_ne m ρ c main_v3 (by decide +kernel)).trans (W3_src m ρ c)
theorem W4_dst : W4 m ρ c (Proc.devRef .tc main_v6) = Cert.ReferenceIdeal.ReadP.val_main_v6 (F := F) (m ((c : Thread nD τ).loc main_arg1)) :=
  (W4_of_ne m ρ c main_v6 (by decide +kernel)).trans (W3_dst m ρ c)
theorem W4_norm : W4 m ρ c (Proc.devRef .tc main_v29) = Cert.ReferenceIdeal.ReadP.val_main_v29 (F := F) (m ((c : Thread nD τ).loc main_arg1)) :=
  (W4_of_ne m ρ c main_v29 (by decide +kernel)).trans (W3_norm m ρ c)

/-- The take after region 0, as printed: the fill-mode take of region 0's output at the sources. -/
theorem W6_take : W6 m ρ c (Proc.devRef .tc main_v31)
    = takeFill64 (W4 m ρ c (Proc.devRef .tc main_v30)) (W4 m ρ c (Proc.devRef .tc main_v3)) := by
  show StableHlo.after hostOps1_1 (StableHlo.after hostOps1 (W4 m ρ c)) (Proc.devRef .tc main_v31) = _
  after_results_simp
  simp only [ofBuf_toBuf_id]
  rw [toBuf_id main_v31, ofBuf_id main_v3, ofBuf_id main_v30]
  rfl

theorem W6_col : W6 m ρ c (Proc.devRef .tc main_v32)
    = shapeCast S1700000x1 (W4 m ρ c (Proc.devRef .tc main_v29)) Cert.KernelIdeal.Facts₀.shapeCasts_S1700000_S1700000x1 := by
  show StableHlo.after hostOps1_1 (StableHlo.after hostOps1 (W4 m ρ c)) (Proc.devRef .tc main_v32) = _
  after_results_simp <;> rfl

theorem W3_arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

section Layer1
variable (mI : (ℓ : Loc nD τ sig) → Buf (Elt Ideal) ℓ)
variable (hsrc : ∀ e : S1700000.Idx, IsNode (srcOf (mI ((c : Thread nD τ).loc main_arg1)) e))
include hsrc

/-- Where every source names a node, the take is the reference's gather of x · W1. -/
theorem W6_hs : W6 mI ρ c (Proc.devRef .tc main_v31) = Cert.ReferenceIdeal.ReadP.val_main_v37 (F := Ideal) (mI ((c : Thread nD τ).loc main_arg0)) (mI ((c : Thread nD τ).loc main_arg1)) (mI ((c : Thread nD τ).loc main_arg2)) := by
  rw [W6_take, W4_lin, W4_src, takeFill64_eq _ _ hsrc]
  rfl

omit hsrc in
/-- The edge weights as a column. -/
theorem W6_n : W6 m ρ c (Proc.devRef .tc main_v32) = Cert.ReferenceIdeal.ReadP.val_main_v38 (F := F) (m ((c : Thread nD τ).loc main_arg1)) := by
  rw [W6_col, W4_norm, col_of_vec]
  rfl

/-- Region 1 leaves the scaled messages. -/
theorem W7_msgs : W7 mI ρ c (Proc.devRef .tc main_v33) = Cert.ReferenceIdeal.ReadP.val_main_v40 (F := Ideal) (mI ((c : Thread nD τ).loc main_arg0)) (mI ((c : Thread nD τ).loc main_arg1)) (mI ((c : Thread nD τ).loc main_arg2)) := by
  refine (W7_arr mI ρ c 2).trans ?_
  rw [scale1_arr (V6 mI ρ) c]
  have e1 : V6 mI ρ c main_v31 = _ := W6_hs ρ c mI hsrc
  have e2 : V6 mI ρ c main_v32 = _ := W6_n mI ρ c
  rw [e1, e2]
  rfl

omit hsrc in
theorem W7_dst : W7 m ρ c (Proc.devRef .tc main_v6) = Cert.ReferenceIdeal.ReadP.val_main_v6 (F := F) (m ((c : Thread nD τ).loc main_arg1)) := by
  refine (W7_of_ne m ρ c main_v6 (by decide +kernel)).trans ?_
  refine Eq.trans ?_ (W4_dst m ρ c)
  show StableHlo.after hostOps1_1 (StableHlo.after hostOps1 (W4 m ρ c)) (Proc.devRef .tc main_v6) = _
  after_results_simp <;> rfl

omit hsrc in
theorem W7_arg3 : W7 m ρ c (Proc.devRef .tc main_arg3) = (m ((c : Thread nD τ).loc main_arg3)) := by
  refine (W7_of_ne m ρ c main_arg3 (by decide +kernel)).trans ?_
  refine Eq.trans ?_ ((W4_of_ne m ρ c main_arg3 (by decide +kernel)).trans (W3_arg3 m ρ c))
  show StableHlo.after hostOps1_1 (StableHlo.after hostOps1 (W4 m ρ c)) (Proc.devRef .tc main_arg3) = _
  after_results_simp <;> rfl

/-- The scatter-add of the messages into their targets. -/
theorem W8_agg : W8 mI ρ c (Proc.devRef .tc main_v36) = Cert.ReferenceIdeal.ReadP.val_main_v43 (F := Ideal) (mI ((c : Thread nD τ).loc main_arg0)) (mI ((c : Thread nD τ).loc main_arg1)) (mI ((c : Thread nD τ).loc main_arg2)) := by
  show StableHlo.after hostOps2 (W7 mI ρ c) (Proc.devRef .tc main_v36) = _
  after_results_simp
  rw [W7_dst, W7_msgs ρ c mI hsrc]
  rfl

omit hsrc in
/-- The bias as a row. -/
theorem W8_row : W8 m ρ c (Proc.devRef .tc main_v37) = Cert.ReferenceIdeal.ReadP.val_main_v44 (F := F) (m ((c : Thread nD τ).loc main_arg3)) := by
  have h : W8 m ρ c (Proc.devRef .tc main_v37)
      = shapeCast S1x64 (W7 m ρ c (Proc.devRef .tc main_arg3)) Cert.KernelIdeal.Facts₀.shapeCasts_S64_S1x64 := by
    show StableHlo.after hostOps2 (W7 m ρ c) (Proc.devRef .tc main_v37) = _
    after_results_simp <;> rfl
  rw [h, W7_arg3, row_of_vec64]
  rfl

/-- Region 2 leaves the first layer's output. -/
theorem W9_h : W9 mI ρ c (Proc.devRef .tc main_v38) = Cert.ReferenceIdeal.ReadP.val_main_v47 (F := Ideal) (mI ((c : Thread nD τ).loc main_arg0)) (mI ((c : Thread nD τ).loc main_arg1)) (mI ((c : Thread nD τ).loc main_arg2)) (mI ((c : Thread nD τ).loc main_arg3)) := by
  refine (W9_arr mI ρ c 2).trans ?_
  rw [bias2_arr (V8 mI ρ) c]
  have e1 : V8 mI ρ c main_v36 = _ := W8_agg ρ c mI hsrc
  have e2 : V8 mI ρ c main_v37 = _ := W8_row mI ρ c
  rw [e1, e2]
  rfl

end Layer1

theorem W3_arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem W3_arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

section Layer2
variable (mI : (ℓ : Loc nD τ sig) → Buf (Elt Ideal) ℓ)
variable (hsrc : ∀ e : S1700000.Idx, IsNode (srcOf (mI ((c : Thread nD τ).loc main_arg1)) e))
include hsrc

/-! ## What layer 2 still reads of the buffers computed before region 0: no region and no later host operation writes them -/

omit hsrc in
theorem W7_src : W7 m ρ c (Proc.devRef .tc main_v3) = srcOf (m ((c : Thread nD τ).loc main_arg1)) := by
  refine (W7_of_ne m ρ c main_v3 (by decide +kernel)).trans ?_
  refine Eq.trans ?_ (W4_src m ρ c)
  show StableHlo.after hostOps1_1 (StableHlo.after hostOps1 (W4 m ρ c)) (Proc.devRef .tc main_v3) = _
  after_results_simp <;> rfl

omit hsrc in
theorem W7_norm : W7 m ρ c (Proc.devRef .tc main_v29) = Cert.ReferenceIdeal.ReadP.val_main_v29 (F := F) (m ((c : Thread nD τ).loc main_arg1)) := by
  refine (W7_of_ne m ρ c main_v29 (by decide +kernel)).trans ?_
  refine Eq.trans ?_ (W4_norm m ρ c)
  show StableHlo.after hostOps1_1 (StableHlo.after hostOps1 (W4 m ρ c)) (Proc.devRef .tc main_v29) = _
  after_results_simp <;> rfl

omit hsrc in
theorem W7_arg4 : W7 m ρ c (Proc.devRef .tc main_arg4) = (m ((c : Thread nD τ).loc main_arg4)) := by
  refine (W7_of_ne m ρ c main_arg4 (by decide +kernel)).trans ?_
  refine Eq.trans ?_ ((W4_of_ne m ρ c main_arg4 (by decide +kernel)).trans (W3_arg4 m ρ c))
  show StableHlo.after hostOps1_1 (StableHlo.after hostOps1 (W4 m ρ c)) (Proc.devRef .tc main_arg4) = _
  after_results_simp <;> rfl

omit hsrc in
theorem W7_arg5 : W7 m ρ c (Proc.devRef .tc main_arg5) = (m ((c : Thread nD τ).loc main_arg5)) := by
  refine (W7_of_ne m ρ c main_arg5 (by decide +kernel)).trans ?_
  refine Eq.trans ?_ ((W4_of_ne m ρ c main_arg5 (by decide +kernel)).trans (W3_arg5 m ρ c))
  show StableHlo.after hostOps1_1 (StableHlo.after hostOps1 (W4 m ρ c)) (Proc.devRef .tc main_arg5) = _
  after_results_simp <;> rfl

omit hsrc in
theorem W9_src : W9 m ρ c (Proc.devRef .tc main_v3) = srcOf (m ((c : Thread nD τ).loc main_arg1)) := by
  refine (W9_of_ne m ρ c main_v3 (by decide +kernel)).trans ?_
  refine Eq.trans ?_ (W7_src m ρ c)
  show StableHlo.after hostOps2 (W7 m ρ c) (Proc.devRef .tc main_v3) = _
  after_results_simp <;> rfl

omit hsrc in
theorem W10_src : W10 m ρ c (Proc.devRef .tc main_v3) = srcOf (m ((c : Thread nD τ).loc main_arg1)) :=
  (W10_of_ne m ρ c main_v3 (by decide +kernel)).trans (W9_src m ρ c)

omit hsrc in
theorem W9_dst : W9 m ρ c (Proc.devRef .tc main_v6) = Cert.ReferenceIdeal.ReadP.val_main_v6 (F := F) (m ((c : Thread nD τ).loc main_arg1)) := by
  refine (W9_of_ne m ρ c main_v6 (by decide +kernel)).trans ?_
  refine Eq.trans ?_ (W7_dst m ρ c)
  show StableHlo.after hostOps2 (W7 m ρ c) (Proc.devRef .tc main_v6) = _
  after_results_simp <;> rfl

omit hsrc in
theorem W10_dst : W10 m ρ c (Proc.devRef .tc main_v6) = Cert.ReferenceIdeal.ReadP.val_main_v6 (F := F) (m ((c : Thread nD τ).loc main_arg1)) :=
  (W10_of_ne m ρ c main_v6 (by decide +kernel)).trans (W9_dst m ρ c)

omit hsrc in
theorem W9_norm : W9 m ρ c (Proc.devRef .tc main_v29) = Cert.ReferenceIdeal.ReadP.val_main_v29 (F := F) (m ((c : Thread nD τ).loc main_arg1)) := by
  refine (W9_of_ne m ρ c main_v29 (by decide +kernel)).trans ?_
  refine Eq.trans ?_ (W7_norm m ρ c)
  show StableHlo.after hostOps2 (W7 m ρ c) (Proc.devRef .tc main_v29) = _
  after_results_simp <;> rfl

omit hsrc in
theorem W10_norm : W10 m ρ c (Proc.devRef .tc main_v29) = Cert.ReferenceIdeal.ReadP.val_main_v29 (F := F) (m ((c : Thread nD τ).loc main_arg1)) :=
  (W10_of_ne m ρ c main_v29 (by decide +kernel)).trans (W9_norm m ρ c)

omit hsrc in
theorem W9_arg4 : W9 m ρ c (Proc.devRef .tc main_arg4) = (m ((c : Thread nD τ).loc main_arg4)) := by
  refine (W9_of_ne m ρ c main_arg4 (by decide +kernel)).trans ?_
  refine Eq.trans ?_ (W7_arg4 m ρ c)
  show StableHlo.after hostOps2 (W7 m ρ c) (Proc.devRef .tc main_arg4) = _
  after_results_simp <;> rfl

omit hsrc in
theorem W9_arg5 : W9 m ρ c (Proc.devRef .tc main_arg5) = (m ((c : Thread nD τ).loc main_arg5)) := by
  refine (W9_of_ne m ρ c main_arg5 (by decide +kernel)).trans ?_
  refine Eq.trans ?_ (W7_arg5 m ρ c)
  show StableHlo.after hostOps2 (W7 m ρ c) (Proc.devRef .tc main_arg5) = _
  after_results_simp <;> rfl

omit hsrc in
theorem W10_arg5 : W10 m ρ c (Proc.devRef .tc main_arg5) = (m ((c : Thread nD τ).loc main_arg5)) :=
  (W10_of_ne m ρ c main_arg5 (by decide +kernel)).trans (W9_arg5 m ρ c)

omit hsrc in
theorem W13_dst : W13 m ρ c (Proc.devRef .tc main_v6) = Cert.ReferenceIdeal.ReadP.val_main_v6 (F := F) (m ((c : Thread nD τ).loc main_arg1)) := by
  refine (W13_of_ne m ρ c main_v6 (by decide +kernel)).trans ?_
  refine Eq.trans ?_ (W10_dst m ρ c)
  show StableHlo.after hostOps4_1 (StableHlo.after hostOps4 (W10 m ρ c)) (Proc.devRef .tc main_v6) = _
  after_results_simp <;> rfl

omit hsrc in
theorem W13_arg5 : W13 m ρ c (Proc.devRef .tc main_arg5) = (m ((c : Thread nD τ).loc main_arg5)) := by
  refine (W13_of_ne m ρ c main_arg5 (by decide +kernel)).trans ?_
  refine Eq.trans ?_ (W10_arg5 m ρ c)
  show StableHlo.after hostOps4_1 (StableHlo.after hostOps4 (W10 m ρ c)) (Proc.devRef .tc main_arg5) = _
  after_results_simp <;> rfl

/-! ## Layer 2 -/

/-- Region 3 leaves h · W2. -/
theorem W10_lin : W10 mI ρ c (Proc.devRef .tc main_v39)
    = Cert.ReferenceIdeal.ReadP.val_main_v48 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) := by
  refine (W10_arr mI ρ c 2).trans ?_
  rw [lin3_arr (V9 mI ρ) c]
  have e1 : V9 mI ρ c main_v38 = _ := W9_h ρ c mI hsrc
  have e2 : V9 mI ρ c main_arg4 = _ := W9_arg4 mI ρ c
  rw [e1, e2]
  rfl

omit hsrc in
theorem W12_take : W12 m ρ c (Proc.devRef .tc main_v40)
    = takeFill16 (W10 m ρ c (Proc.devRef .tc main_v39)) (W10 m ρ c (Proc.devRef .tc main_v3)) := by
  show StableHlo.after hostOps4_1 (StableHlo.after hostOps4 (W10 m ρ c)) (Proc.devRef .tc main_v40) = _
  after_results_simp
  simp only [ofBuf_toBuf_id]
  rw [toBuf_id main_v40, ofBuf_id main_v3, ofBuf_id main_v39]
  rfl

omit hsrc in
theorem W12_col : W12 m ρ c (Proc.devRef .tc main_v41)
    = shapeCast S1700000x1 (W10 m ρ c (Proc.devRef .tc main_v29)) Cert.KernelIdeal.Facts₀.shapeCasts_S1700000_S1700000x1 := by
  show StableHlo.after hostOps4_1 (StableHlo.after hostOps4 (W10 m ρ c)) (Proc.devRef .tc main_v41) = _
  after_results_simp <;> rfl

theorem W12_hs : W12 mI ρ c (Proc.devRef .tc main_v40)
    = Cert.ReferenceIdeal.ReadP.val_main_v55 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) := by
  rw [W12_take, W10_lin ρ c mI hsrc, W10_src, takeFill16_eq _ _ hsrc]
  rfl

omit hsrc in
theorem W12_n : W12 m ρ c (Proc.devRef .tc main_v41) = Cert.ReferenceIdeal.ReadP.val_main_v56 (F := F) (m ((c : Thread nD τ).loc main_arg1)) := by
  rw [W12_col, W10_norm, col_of_vec]
  rfl

/-- Region 4 leaves the scaled messages of layer 2. -/
theorem W13_msgs : W13 mI ρ c (Proc.devRef .tc main_v42)
    = Cert.ReferenceIdeal.ReadP.val_main_v58 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) := by
  refine (W13_arr mI ρ c 2).trans ?_
  rw [scale4_arr (V12 mI ρ) c]
  have e1 : V12 mI ρ c main_v40 = _ := W12_hs ρ c mI hsrc
  have e2 : V12 mI ρ c main_v41 = _ := W12_n mI ρ c
  rw [e1, e2]
  rfl

theorem W14_agg : W14 mI ρ c (Proc.devRef .tc main_v45)
    = Cert.ReferenceIdeal.ReadP.val_main_v61 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) := by
  show StableHlo.after hostOps5 (W13 mI ρ c) (Proc.devRef .tc main_v45) = _
  after_results_simp
  rw [W13_dst, W13_msgs ρ c mI hsrc]
  rfl

omit hsrc in
theorem W14_row : W14 m ρ c (Proc.devRef .tc main_v46) = Cert.ReferenceIdeal.ReadP.val_main_v62 (F := F) (m ((c : Thread nD τ).loc main_arg5)) := by
  have h : W14 m ρ c (Proc.devRef .tc main_v46)
      = shapeCast S1x16 (W13 m ρ c (Proc.devRef .tc main_arg5)) Cert.KernelIdeal.Facts₀.shapeCasts_S16_S1x16 := by
    show StableHlo.after hostOps5 (W13 m ρ c) (Proc.devRef .tc main_v46) = _
    after_results_simp <;> rfl
  rw [h, W13_arg5, row_of_vec16]
  rfl

/-- THE RESULT: what the kernel program leaves in its result buffer is the reference's last stage of the arguments. -/
theorem W15_out : W15 mI ρ c (Proc.devRef .tc main_v47)
    = Cert.ReferenceIdeal.ReadP.val_main_v64 (F := Ideal) (mI ((c : Thread nD τ).loc main_arg0)) (mI ((c : Thread nD τ).loc main_arg1)) (mI ((c : Thread nD τ).loc main_arg2)) (mI ((c : Thread nD τ).loc main_arg3)) (mI ((c : Thread nD τ).loc main_arg4)) (mI ((c : Thread nD τ).loc main_arg5)) := by
  refine (W15_arr mI ρ c 2).trans ?_
  rw [bias5_arr (V14 mI ρ) c]
  have e1 : V14 mI ρ c main_v45 = _ := W14_agg ρ c mI hsrc
  have e2 : V14 mI ρ c main_v46 = _ := W14_row mI ρ c
  rw [e1, e2]
  rfl

end Layer2

end Walk

end Cert.Bridge
end
-- ==== Proof.lean ====
/- The certificate of a two-layer graph convolution: out = Â · relu(Â · (x W1) + b1) · W2 + b2, where Â scatters each
   node's row, scaled by an edge weight, into the edge's target (self loops included).

   The kernel program computes each layer as a Pallas matmul (x · W in row blocks), a host gather of the rows at the
   edges' sources, a Pallas scaling of each gathered row by its edge weight, a host scatter-add into the targets, and a
   Pallas bias add (with relu in the first layer). The reference does the same with host operations throughout. At the
   extended reals every stage of the kernel program is, as a function of the arrays before it, the corresponding stage
   of the reference: the matmul blocks tile x · W, the scaled blocks tile the pointwise product, the bias blocks tile
   the broadcast sum. The one difference is the gather: the kernel's take writes a fill pattern where the wrapped source
   index falls outside [0, 99999], the reference's gather clamps it; under the precondition that row 0 of the edge list
   holds node numbers the two agree, and then the two programs are the same composition of the same stages.

   The frames of the two kernel programs are the generated ones; the reference's frame is its run with the result
   dropped; the ideal pass rewrote nothing, so `preserves` is trivial; `algebraic` is the stage-by-stage identification
   (Walk) under the kernel's run with its result named and the reference's run read as stages. -/
import proofs.«404506_j5342939316741_2_alg».proof.Defs
import proofs.«404506_j5342939316741_2_alg».proof.Proof.Gen.Kernel
import proofs.«404506_j5342939316741_2_alg».proof.Proof.Gen.Kernel.Skeleton
import proofs.«404506_j5342939316741_2_alg».proof.Proof.Gen.Kernel.Launch
import proofs.«404506_j5342939316741_2_alg».proof.Proof.Gen.Kernel.Points
import proofs.«404506_j5342939316741_2_alg».proof.Proof.Gen.Kernel.Frame
import proofs.«404506_j5342939316741_2_alg».proof.Proof.Gen.KernelIdeal
import proofs.«404506_j5342939316741_2_alg».proof.Proof.Gen.KernelIdeal.Skeleton
import proofs.«404506_j5342939316741_2_alg».proof.Proof.Gen.KernelIdeal.Launch
import proofs.«404506_j5342939316741_2_alg».proof.Proof.Gen.KernelIdeal.Points
import proofs.«404506_j5342939316741_2_alg».proof.Proof.Gen.KernelIdeal.Frame
import proofs.«404506_j5342939316741_2_alg».proof.Proof.Gen.ReferenceIdeal
import proofs.«404506_j5342939316741_2_alg».proof.Proof.Gen.Pre_finite_inputs
import proofs.«404506_j5342939316741_2_alg».proof.Proof.RefRun
import proofs.«404506_j5342939316741_2_alg».proof.Proof.RefRead
import proofs.«404506_j5342939316741_2_alg».proof.Proof.KRun
import proofs.«404506_j5342939316741_2_alg».proof.Proof.SrcRange
import proofs.«404506_j5342939316741_2_alg».proof.Proof.Walk
import Idealize.ShloMosaic.Adequacy
import Idealize.ShloMosaic.Init

noncomputable section

namespace Cert.Proof

open Idealize.ShloMosaic Idealize.SL.Sem

/-- Both programs, run from memories that agree on the arguments, end with the reference's last stage of the
    arguments in their result buffers. -/
theorem algebraic : Cert.algebraic_KernelIdeal_ReferenceIdeal := by
  intro m ρ m' ρ' hpre hagree
  -- every message's source names a node: row 0 of the edge list by the precondition, the self loops by construction
  have hsrc : ∀ (c : Dev Cert.KernelIdeal.nD) (e : Cert.KernelIdeal.S1700000.Idx), Cert.Bridge.IsNode (Cert.Bridge.srcOf (m ((c.tc : Thread Cert.KernelIdeal.nD Cert.KernelIdeal.τ).loc Cert.KernelIdeal.main_arg1)) e) :=
    fun c e => Cert.Bridge.srcOf_isNode_of_pre (F := Ideal) _ _ _ _ _ _ (hpre c) e
  refine ⟨fun c => Cert.ReferenceIdeal.ReadP.val_main_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run (Cert.KernelIdeal.defs (F := Ideal)) _ _).mono
      (fun r h c => ⟨(h c).1.trans (Cert.Bridge.W15_out ρ c m (hsrc c)), (h c).2⟩)
      (Cert.KernelIdeal.Named.run_named (F := Ideal) m ρ)
  · exact (θ_run (Cert.ReferenceIdeal.defs (F := Ideal)) _ _).mono
      (fun r h c => ⟨by
          rw [(h c).1, Cert.ReferenceIdeal.ReadP.val_main_v64_eq, (hagree c).1, (hagree c).2.1, (hagree c).2.2.1, (hagree c).2.2.2.1,
            (hagree c).2.2.2.2.1, (hagree c).2.2.2.2.2], (h c).2⟩)
      (Cert.ReferenceIdeal.RunP.run (F := Ideal) m' ρ')

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2) (Cert.ReferenceIdeal.RunP.run (F := Ideal) m ρ),
  trivial,
  algebraic⟩

end Cert.Proof

end
